-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x32000 : Shape := ⟨3, ![8, 1024, 32000]⟩
abbrev S8x1024 : Shape := ⟨2, ![8, 1024]⟩
abbrev S_ : Shape := ⟨0, ![]⟩

class Facts : Prop where
  bcast_S_S8x1024x32000 : S_.BroadcastsInDim S8x1024x32000 (![] : Fin 0 → Fin S8x1024x32000.rank)
  reducesTo_S8x1024x32000_S_d0_1_2 : S8x1024x32000.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x32000 .f32) (main_arg1 : IVec S8x1024 32) : IVec S_ 1 :=
  let main_v0 : FVec F S8x1024x32000 .f32 := Host.absf main_arg0
  let main_cst : FVec F S_ .f32 := constant S_ .f32 0x7F800000#32
  let main_v1 : FVec F S8x1024x32000 .f32 := broadcastInDim S8x1024x32000 ![] bcast_S_S8x1024x32000 main_cst
  let main_v2 : IVec S8x1024x32000 1 := cmpf .olt main_v0 main_v1
  let main_c : IVec S_ 1 := constantI S_ 1 1#1
  let main_v3 : IVec S_ 1 := (fun x v => Host.reduce IntOp.andi x v reducesTo_S8x1024x32000_S_d0_1_2 h_S_) main_v2 main_c
  let main_c_0 : IVec S_ 32 := constantI S_ 32 0#32
  let main_v4 : IVec S8x1024 32 := broadcastInDim S8x1024 ![] bcast_S_S8x1024 main_c_0
  let main_v5 : IVec S8x1024 1 := cmpi .sge main_arg1 main_v4
  let main_c_1 : IVec S_ 1 := constantI S_ 1 1#1
  let main_v6 : IVec S_ 1 := (fun x v => Host.reduce IntOp.andi x v reducesTo_S8x1024_S_d0_1 h_S_) main_v5 main_c_1
  let main_v7 : IVec S_ 1 := andi main_v3 main_v6
  let main_c_2 : IVec S_ 32 := constantI S_ 32 32000#32
  let main_v8 : IVec S8x1024 32 := broadcastInDim S8x1024 ![] bcast_S_S8x1024 main_c_2
  let main_v9 : IVec S8x1024 1 := cmpi .slt main_arg1 main_v8
  let main_c_3 : IVec S_ 1 := constantI S_ 1 1#1
  let main_v10 : IVec S_ 1 := (fun x v => Host.reduce IntOp.andi x v reducesTo_S8x1024_S_d0_1 h_S_) main_v9 main_c_3
  let main_v11 : IVec S_ 1 := andi main_v7 main_v10
  main_v11
-- ==== Kernel.lean ====
abbrev S8x1024x32000 : Shape := ⟨3, ![8, 1024, 32000]⟩
abbrev S8x1024 : Shape := ⟨2, ![8, 1024]⟩
abbrev S8x1024x1 : Shape := ⟨3, ![8, 1024, 1]⟩
abbrev S1x512x1 : Shape := ⟨3, ![1, 512, 1]⟩
abbrev S1x512x6400 : Shape := ⟨3, ![1, 512, 6400]⟩
abbrev S1x512x1280 : Shape := ⟨3, ![1, 512, 1280]⟩
abbrev S1x512 : Shape := ⟨2, ![1, 512]⟩
abbrev S_ : Shape := ⟨0, ![]⟩
abbrev S8 : Shape := ⟨1, ![8]⟩
abbrev S1024 : Shape := ⟨1, ![1024]⟩
abbrev S1x1024 : Shape := ⟨2, ![1, 1024]⟩
abbrev S8x1 : Shape := ⟨2, ![8, 1]⟩

abbrev nBuf : Space → Nat
  | .hbm => 28
  | .vmem => 7
  | .smem => 0
  | _ => 0

abbrev bufTy : (tb : Table) → Fin (tcTables nBuf tb) → BufTy
  | .hbm, ⟨0, _⟩ => ⟨S8x1024x32000, .f32⟩
  | .hbm, ⟨1, _⟩ => ⟨S8x1024, .i32⟩
  | .hbm, ⟨2, _⟩ => ⟨S8x1024x1, .i32⟩
  | .hbm, ⟨3, _⟩ => ⟨S8x1024x1, .f32⟩
  | .hbm, ⟨4, _⟩ => ⟨S8x1024, .f32⟩
  | .hbm, ⟨5, _⟩ => ⟨S8x1024, .f32⟩
  | .hbm, ⟨6, _⟩ => ⟨S_, .i32⟩
  | .hbm, ⟨7, _⟩ => ⟨S8x1024, .i32⟩
  | .hbm, ⟨8, _⟩ => ⟨S8x1024, .i1⟩
  | .hbm, ⟨9, _⟩ => ⟨S8x1024, .i32⟩
  | .hbm, ⟨10, _⟩ => ⟨S_, .i1⟩
  | .hbm, ⟨11, _⟩ => ⟨S_, .i32⟩
  | .hbm, ⟨12, _⟩ => ⟨S8, .i1⟩
  | .hbm, ⟨13, _⟩ => ⟨S8, .i32⟩
  | .hbm, ⟨14, _⟩ => ⟨S1024, .i32⟩
  | .hbm, ⟨15, _⟩ => ⟨S1x1024, .i32⟩
  | .hbm, ⟨16, _⟩ => ⟨S8x1, .i32⟩
  | .hbm, ⟨17, _⟩ => ⟨S8x1024, .i32⟩
  | .hbm, ⟨18, _⟩ => ⟨S8x1024, .i32⟩
  | .hbm, ⟨19, _⟩ => ⟨S8x1024, .i1⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S_, .f32⟩
  | .local _ .vmem, ⟨0, _⟩ => ⟨S1x512x1, .i32⟩
  | .local _ .vmem, ⟨1, _⟩ => ⟨S1x512x1, .i32⟩
  | .local _ .vmem, ⟨2, _⟩ => ⟨S1x512x6400, .f32⟩
  | .local _ .vmem, ⟨3, _⟩ => ⟨S1x512x6400, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | _, _ => ⟨S8x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond2 (i : grid0.Coords) : BitVec 1 :=
  let arg2 : BitVec 32 := BitVec.ofNat 32 (i 2).val
  let c4_i32 : BitVec 32 := 4#32
  let v72 : BitVec 1 := Scalar.cmpi .eq arg2 c4_i32
  let v73 : BitVec 32 := Scalar.extui v72
  let c0_i32_31 : BitVec 32 := 0#32
  let v74 : BitVec 1 := Scalar.cmpi .ne v73 c0_i32_31
  v74

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S8x1024_S8x1024x1_0_1 : S8x1024.BroadcastsInDim S8x1024x1 (![0, 1] : Fin 2 → Fin S8x1024x1.rank)
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x6400_S1x512x1280_0_0_0 : ∀ a, (![0, 0, 0] : Fin 3 → Nat) a + S1x512x1280.size a ≤ S1x512x6400.size a
  h_S1x512x1280 : 0 < S1x512x1280.numel
  iota_S1x512x1280_d2_w32 : S1x512x1280.Iotas .tc 32 [2]
  broadcasts_S1x512x1_S1x512x1280 : S1x512x1.Broadcasts S1x512x1280
  reduces_S1x512x1280_S1x512 : S1x512x1280.Reduces [2] S1x512
  shapeCasts_S1x512_S1x512x1 : S1x512.ShapeCasts S1x512x1
  inb_S1x512x6400_S1x512x1280_0_0_1280 : ∀ a, (![0, 0, 1280] : Fin 3 → Nat) a + S1x512x1280.size a ≤ S1x512x6400.size a
  inb_S1x512x6400_S1x512x1280_0_0_2560 : ∀ a, (![0, 0, 2560] : Fin 3 → Nat) a + S1x512x1280.size a ≤ S1x512x6400.size a
  inb_S1x512x6400_S1x512x1280_0_0_3840 : ∀ a, (![0, 0, 3840] : Fin 3 → Nat) a + S1x512x1280.size a ≤ S1x512x6400.size a
  inb_S1x512x6400_S1x512x1280_0_0_5120 : ∀ a, (![0, 0, 5120] : Fin 3 → Nat) a + S1x512x1280.size a ≤ S1x512x6400.size a
  shapeCasts_S8x1024x1_S8x1024 : S8x1024x1.ShapeCasts S8x1024
  bcast_S_S8x1024 : S_.BroadcastsInDim S8x1024 (![] : Fin 0 → Fin S8x1024.rank)
  reducesTo_S8x1024_S8_d1 : S8x1024.ReducesTo [1] S8
  h_S_ : 0 < S_.numel
  bcast_S1024_S1x1024_1 : S1024.BroadcastsInDim S1x1024 (![1] : Fin 1 → Fin S1x1024.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x1024x1.size a
  hwx0_0 : ∀ i : grid0.Coords, EltTy.bits .i32 = 32 ∨ (Rect.block (s := S8x1024x1) S1x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x6400.size a ≤ S8x1024x32000.size a
  hwx0_1 : ∀ i : grid0.Coords, EltTy.bits .f32 = 32 ∨ (Rect.block (s := S8x1024x32000) S1x512x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x1024x1.size a
  hwx0_2 : ∀ i : grid0.Coords, EltTy.bits .f32 = 32 ∨ (Rect.block (s := S8x1024x1) S1x512x1.size (cc0_transform_2 i) (hinb0_2 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

abbrev win0_0 : Pipeline.Window sig grid0 :=
  Pipeline.Window.ofSpec (Memref.whole main_v0) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x1024x32000 : Shape := ⟨3, ![8, 1024, 32000]⟩
abbrev S8x1024 : Shape := ⟨2, ![8, 1024]⟩
abbrev S_ : Shape := ⟨0, ![]⟩
abbrev S8 : Shape := ⟨1, ![8]⟩
abbrev S1024 : Shape := ⟨1, ![1024]⟩
abbrev S1x1024 : Shape := ⟨2, ![1, 1024]⟩
abbrev S8x1 : Shape := ⟨2, ![8, 1]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x32000, .f32⟩
  | .hbm, ⟨1, _⟩ => ⟨S8x1024, .i32⟩
  | .hbm, ⟨2, _⟩ => ⟨S_, .i32⟩
  | .hbm, ⟨3, _⟩ => ⟨S8x1024, .i32⟩
  | .hbm, ⟨4, _⟩ => ⟨S8x1024, .i1⟩
  | .hbm, ⟨5, _⟩ => ⟨S8x1024, .i32⟩
  | .hbm, ⟨6, _⟩ => ⟨S_, .i1⟩
  | .hbm, ⟨7, _⟩ => ⟨S_, .i32⟩
  | .hbm, ⟨8, _⟩ => ⟨S8, .i1⟩
  | .hbm, ⟨9, _⟩ => ⟨S8, .i32⟩
  | .hbm, ⟨10, _⟩ => ⟨S1024, .i32⟩
  | .hbm, ⟨11, _⟩ => ⟨S1x1024, .i32⟩
  | .hbm, ⟨12, _⟩ => ⟨S8x1, .i32⟩
  | .hbm, ⟨13, _⟩ => ⟨S8x1024, .i32⟩
  | .hbm, ⟨14, _⟩ => ⟨S8x1024, .i32⟩
  | .hbm, ⟨15, _⟩ => ⟨S8x1024, .i1⟩
  | .hbm, ⟨16, _⟩ => ⟨S8x1024x1, .i32⟩
  | .hbm, ⟨17, _⟩ => ⟨S_, .i32⟩
  | .hbm, ⟨18, _⟩ => ⟨S8x1024x1, .i32⟩
  | .hbm, ⟨19, _⟩ => ⟨S8x1024x1, .i1⟩
  | .hbm, ⟨20, _⟩ => ⟨S_, .i32⟩
  | .hbm, ⟨21, _⟩ => ⟨S8x1024x1, .i32⟩
  | .hbm, ⟨22, _⟩ => ⟨S8x1024x1, .i32⟩
  | .hbm, ⟨23, _⟩ => ⟨S8x1024x1, .i32⟩
  | .hbm, ⟨24, _⟩ => ⟨S8x1024x1x1, .i32⟩
  | .hbm, ⟨25, _⟩ => ⟨S1, .i32⟩
  | .hbm, ⟨26, _⟩ => ⟨S_, .i32⟩
  | .hbm, ⟨27, _⟩ => ⟨S8x1024x1x1, .i32⟩
  | .hbm, ⟨28, _⟩ => ⟨S8x1024x1x1, .i1⟩
  | .hbm, ⟨29, _⟩ => ⟨S1x1x1x1, .i32⟩
  | .hbm, ⟨30, _⟩ => ⟨S8x1024x1x1, .i32⟩
  | .hbm, ⟨31, _⟩ => ⟨S8x1024x1x1, .i1⟩
  | .hbm, ⟨32, _⟩ => ⟨S8x1024x1x1, .i1⟩
  | .hbm, ⟨33, _⟩ => ⟨S_, .i1⟩
  | .hbm, ⟨34, _⟩ => ⟨S8x1024x1, .i1⟩
  | .hbm, ⟨35, _⟩ => ⟨S8x1024x1, .f32⟩
  | .hbm, ⟨36, _⟩ => ⟨S_, .f32⟩
  | .hbm, ⟨37, _⟩ => ⟨S8x1024x1, .f32⟩
  | .hbm, ⟨38, _⟩ => ⟨S8x1024x1, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S8x1024, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | _, _ => ⟨S8x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_c_0 : Ref sig .tc := ⟨.hbm, 7, rfl⟩
abbrev main_call0_v1_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_0 : Ref sig .tc := ⟨.hbm, 47, rfl⟩
abbrev main_v18 : Ref sig .tc := ⟨.hbm, 48, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  reducesTo_S8x1024_S8_d1 : S8x1024.ReducesTo [1] S8
  h_S_ : 0 < S_.numel
  bcast_S1024_S1x1024_1 : S1024.BroadcastsInDim S1x1024 (![1] : Fin 1 → Fin S1x1024.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  reducesTo_S8_S_d0 : S8.ReducesTo [0] S_
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.Spec.lean ====
/-
  The function both programs compute before their shared tail, and the arithmetic of one row of the
  masked scan.

  For log-probabilities `x` of shape [8, 1024, 32000] and labels `tg` of shape [8, 1024] (32-bit words),
  `picked x tg` is the [8, 1024, 1] array whose entry at (b, t, 0) is `x[b, t, tg[b, t]]` when the label,
  read as a natural number, is a column (below 32000), and 0 otherwise.

  The kernel scans the 32000 columns of a row in five tiles of 6400 columns, and each tile in five chunks of
  1280; in a chunk it adds up `x` where the column's number equals the label and 0 elsewhere. A sum of
  zeros and at most one entry is that entry or 0, whatever the entry (0 is neutral for + on all of the
  extended reals), so no finiteness is used.
-/
import Idealize.ShloMosaic.PureOps.Ideal
import Idealize.ShloMosaic.Lib.ValueIdx
import Mathlib.Algebra.BigOperators.Fin

noncomputable section

open scoped BigOperators

namespace Cert.NllGather

open Idealize.ShloMosaic Idealize.ShloMosaic.ValueIdx

/-- `x[b, t, tg[b, t]]` when the label is a column, else 0. -/
def pickAt (x : (⟨3, ![8, 1024, 32000]⟩ : Shape).Idx → EReal) (tg : (⟨2, ![8, 1024]⟩ : Shape).Idx → BitVec 32)
    (b : Fin 8) (t : Fin 1024) : EReal :=
  if h : (tg (ix2 b t)).toNat < 32000 then x (ix3 b t ⟨(tg (ix2 b t)).toNat, h⟩) else 0

/-- The [8, 1024, 1] array of the picked entries. -/
def picked (x : (⟨3, ![8, 1024, 32000]⟩ : Shape).Idx → EReal) (tg : (⟨2, ![8, 1024]⟩ : Shape).Idx → BitVec 32) :
    (⟨3, ![8, 1024, 1]⟩ : Shape).Idx → EReal :=
  fun j => pickAt x tg (j 0) (j 1)

theorem picked_apply (x : (⟨3, ![8, 1024, 32000]⟩ : Shape).Idx → EReal) (tg : (⟨2, ![8, 1024]⟩ : Shape).Idx → BitVec 32)
    (b : Fin 8) (t : Fin 1024) (z : Fin 1) : picked x tg (ix3 b t z) = pickAt x tg b t := rfl

/-- What one tile of 6400 columns contributes to a row: the row's entry at the label when the label falls in
    tile `v` (columns `6400 v` to `6400 v + 6399`), else 0. `row` is the tile's 6400 entries of that row. -/
def tileHit (v : Nat) (w : BitVec 32) (row : Fin 6400 → EReal) : EReal :=
  if h : v * 6400 ≤ w.toNat ∧ w.toNat < v * 6400 + 6400 then row ⟨w.toNat - v * 6400, by omega⟩ else 0

/-- A sum over a finite range of `x` at one index and 0 elsewhere is `x` there. -/
theorem sum_ite_eq_single {n : Nat} (k : Fin n) (f : Fin n → EReal) :
    (∑ j : Fin n, if j = k then f j else 0) = f k := by
  rw [Finset.sum_ite_eq' Finset.univ k f]; simp

/-- A sum of zeros is 0. -/
theorem sum_zero' {n : Nat} : (∑ _j : Fin n, (0 : EReal)) = 0 := Finset.sum_const_zero

end Cert.NllGather

end
-- ==== Proof.LabelWords.lean ====
/-
  Facts about one label word. A 32-bit word whose value as a natural number is below 32000 is non-negative
  as a signed integer, not below 0, at most 31999, and reads the same signed and unsigned; conversely a word
  that is signed-non-negative and signed-below 32000 has a natural value below 32000.
-/
import Idealize.ShloMosaic.PureOps.Ideal
import Idealize.ShloMosaic.Lib.StableHlo.Predicate

namespace Cert.NllGather

open Idealize.ShloMosaic

/-- A word below 32000 is below 2³¹, so its signed reading is its natural value. -/
private theorem toInt_of_lt (w : BitVec 32) (h : w.toNat < 32000) : w.toInt = (w.toNat : Int) :=
  StableHlo.Predicate.toInt_eq_toNat_of_lt (by omega)

private theorem toNat_lit_zero : (0#32 : BitVec 32).toNat = 0 := rfl
private theorem toNat_lit_max : (31999#32 : BitVec 32).toNat = 31999 := rfl
private theorem toNat_lit_bound : (32000#32 : BitVec 32).toNat = 32000 := rfl
private theorem toInt_lit_zero : (0#32 : BitVec 32).toInt = 0 := by decide
private theorem toInt_lit_bound : (32000#32 : BitVec 32).toInt = 32000 := by decide

theorem slt_zero_of_lt (w : BitVec 32) (h : w.toNat < 32000) : IntOp.cmpi .slt w 0#32 = 0#1 := by
  have hw := toInt_of_lt w h
  have hlt : w.slt 0#32 = false := by
    simp only [BitVec.slt, hw, toInt_lit_zero, decide_eq_false_iff_not]
    omega
  show BitVec.ofBool (w.slt 0#32) = 0#1
  rw [hlt]; rfl

theorem sge_zero_of_lt (w : BitVec 32) (h : w.toNat < 32000) : IntOp.cmpi .sge w 0#32 = 1#1 := by
  refine (StableHlo.Predicate.sge_iff_toNat (a := w) (b := 0#32) (by omega) (by rw [toNat_lit_zero]; omega)).mpr ?_
  rw [toNat_lit_zero]; omega

theorem sle_max_of_lt (w : BitVec 32) (h : w.toNat < 32000) : IntOp.cmpi .sle w 31999#32 = 1#1 := by
  refine (StableHlo.Predicate.sle_iff_toNat (a := w) (b := 31999#32) (by omega) (by rw [toNat_lit_max]; omega)).mpr ?_
  rw [toNat_lit_max]; omega

theorem toInt_toNat_of_lt (w : BitVec 32) (h : w.toNat < 32000) : w.toInt.toNat = w.toNat := by
  rw [toInt_of_lt w h]; exact Int.toNat_natCast _

theorem lt_of_sge_slt (w : BitVec 32) (h0 : IntOp.cmpi .sge w 0#32 = 1#1) (h1 : IntOp.cmpi .slt w 32000#32 = 1#1) :
    w.toNat < 32000 := by
  -- signed-non-negative: the sign bit is clear, so the signed reading is the natural value
  have h0' : (0#32 : BitVec 32).sle w = true := (StableHlo.Predicate.ofBool_eq_one_iff _).mp h0
  have h1' : w.slt 32000#32 = true := (StableHlo.Predicate.ofBool_eq_one_iff _).mp h1
  simp only [BitVec.sle, toInt_lit_zero, decide_eq_true_eq] at h0'
  simp only [BitVec.slt, toInt_lit_bound, decide_eq_true_eq] at h1'
  have hc := BitVec.toInt_eq_toNat_cond w
  have hlt := w.isLt
  split at hc <;> omega

end Cert.NllGather
-- ==== Proof.PreRange.lean ====
/-
  The precondition, read: where it holds, every label is a column number — its word, read as a natural
  number, is below 32000. (The precondition's two added conjuncts say every label is signed-non-negative and
  signed-below 32000; its first conjunct, finiteness of the log-probabilities, is not used.)
-/
import proofs.«402519_j87290915324014_3_alg».proof.Pre_finite_inputs
import proofs.«402519_j87290915324014_3_alg».proof.Proof.Gen.Pre_finite_inputs
import proofs.«402519_j87290915324014_3_alg».proof.Proof.LabelWords
import Idealize.ShloMosaic.Lib.ValueIdx
import Idealize.ShloMosaic.Lib.ReduceAll
import Idealize.ShloMosaic.Lib.StableHlo.Predicate

noncomputable section

namespace Cert.NllGather

open Idealize.ShloMosaic Idealize.ShloMosaic.ValueIdx

theorem range_of_pre (x : FVec Ideal Cert.Pre_finite_inputs.S8x1024x32000 .f32) (tg : IVec Cert.Pre_finite_inputs.S8x1024 32)
    (h : Cert.Pre_finite_inputs.fn (F := Ideal) x tg = fun _ => 1#1) :
    ∀ (b : Fin 8) (t : Fin 1024), (tg (ix2 b t)).toNat < 32000 := by
  intro b t
  haveI : Subsingleton Cert.Pre_finite_inputs.S_.Idx := ⟨fun a b => funext fun d => d.elim0⟩
  have h0 := congrFun h ValueIdx.ix0
  dsimp only [Cert.Pre_finite_inputs.fn] at h0
  -- the conjunction of three "all"s: split it, keep the two about the labels
  obtain ⟨h12, h3⟩ := IntOp.andi_eq_one.1 h0
  obtain ⟨_, h2⟩ := IntOp.andi_eq_one.1 h12
  -- an "all" that is 1 is 1 at every position: read both at (b, t)
  have e2 := Host.reduce_andi_all _ _ _ _ _ h2 (ix2 b t)
  have e3 := Host.reduce_andi_all _ _ _ _ _ h3 (ix2 b t)
  exact lt_of_sge_slt _ e2 e3

end Cert.NllGather

end
-- ==== Proof.KernelPieces.lean ====
/-
  What one grid point's body leaves in the accumulator and in the output block, as ONE function `step` of the
  point's label block, its [1, 512, 6400] block of log-probabilities and what the accumulator held before:
  the accumulator's old contents plus the five chunk sums of the masked block. At the first tile of a row
  block the accumulator is first reset to the zero block.
-/
import proofs.«402519_j87290915324014_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.NllGather.Kernel

open Cert.KernelIdeal Cert.KernelIdeal.Gen

variable {F : FTy → Type} [FloatOps F]

/-- The 1280 columns of a [1, 512, 6400] block that start at column `off`. -/
def chunk (x1 : Vec F S1x512x6400 .f32) (off : Nat) (h : off + 1280 ≤ 6400) : Vec F S1x512x1280 .f32 :=
  fun y => x1 (ix3 (y 0) (y 1) (⟨off + (y 2).val, by have h2 : (y 2).val < 1280 := (y 2).isLt; omega⟩ : Fin 6400))

/-- The zero block the first tile of a row block stores into the accumulator. -/
def zeroBlk : Vec F S1x512x1 .f32 := k0_pay2

/-- One point's update of the accumulator: the old contents `xs` plus the five chunk sums of the block `x1`
    masked by "column number = label − tile offset − chunk offset". -/
def step (i : grid0.Coords) (x0 : Vec F S1x512x1 .i32) (x1 : Vec F S1x512x6400 .f32) (xs : Vec F S1x512x1 .f32) :
    Vec F S1x512x1 .f32 :=
  k0_pay4 (Scalar.muli (BitVec.ofNat 32 (i 2).val) 6400#32) (k0_pay1 x0)
    (k0_pay3 i x0 (chunk x1 0 (by omega)) (chunk x1 1280 (by omega))) (chunk x1 2560 (by omega))
    (iota .tc S1x512x1280 32 [2] iota_S1x512x1280_d2_w32) 2560#32 (chunk x1 3840 (by omega)) (chunk x1 5120 (by omega)) xs

/-- The zero offsets of a whole [1, 512, 1] block, as the constant function. -/
private theorem hz : (![0, 0, 0] : Fin 3 → Nat) = fun _ => 0 := funext fun a => by fin_cases a <;> rfl

/-- A unit-stride load of the 1280 columns from column `off` of a block reads the block at column `off + y₂`:
    on each axis the load places its index at offset + 1 · coordinate, and the first two offsets are zero. -/
private theorem ld_chunk (x1 : Vec F S1x512x6400 .f32) (off : Nat) (h : off + 1280 ≤ 6400)
    (inb : ∀ a, (![0, 0, off] : Fin 3 → Nat) a + S1x512x1280.size a ≤ S1x512x6400.size a) :
    View.ld x1 (Rect.unit (s := S1x512x6400) ![0, 0, off] S1x512x1280.size inb) = chunk x1 off h := by
  funext y
  refine congrArg x1 (funext fun a => Fin.ext ?_)
  match a with
  | ⟨0, _⟩ => show 0 + 1 * (y 0).val = (y 0).val; omega
  | ⟨1, _⟩ => show 0 + 1 * (y 1).val = (y 1).val; omega
  | ⟨2, _⟩ => show off + 1 * (y 2).val = off + (y 2).val; omega

/-- First tile of a row block: the accumulator ends at the step from the zero block. The body stores the zero block,
    then the update, which covers it; the update's last argument is the accumulator read back after the first store,
    that is the zero block. -/
theorem sout_A (c : Dev nD) (i : grid0.Coords) (a3 : Memref sig .tc .vmem S1x512x1 .i32) (h3 : a3.IsWhole)
    (a4 : Memref sig .tc .vmem S1x512x6400 .f32) (h4 : a4.IsWhole) (a5 : Memref sig .tc .vmem S1x512x1 .f32) (h5 : a5.IsWhole)
    (a6 : Memref sig .tc .vmem S1x512x1 .f32) (h6 : a6.IsWhole) (hc0 : cond0_0 i) (hc1 : ¬cond0_1 i)
    (x0 : Vec F S1x512x1 .i32) (x1 : Vec F S1x512x6400 .f32) :
    sout0_A_0 c i a3 h3 a4 h4 a5 h5 a6 h6 hc0 hc1 x0 x1 = step i x0 x1 zeroBlk := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1x512x1) hz, View.readCov_unit_zero (S := S1x512x1) _ hz]
  unfold step zeroBlk
  simp only [View.readAt_eq_ld, h3.read_unread, h4.read_unread, View.ld_unit_zero (S := S1x512x1) hz,
    ld_chunk x1 0 (by omega), ld_chunk x1 1280 (by omega), ld_chunk x1 2560 (by omega), ld_chunk x1 3840 (by omega),
    ld_chunk x1 5120 (by omega)]

/-- A middle tile: the accumulator ends at the step from what it held. One covering store, whose loads read the
    whole label block, the five column chunks and the accumulator. -/
theorem sout_B (c : Dev nD) (i : grid0.Coords) (a3 : Memref sig .tc .vmem S1x512x1 .i32) (h3 : a3.IsWhole)
    (a4 : Memref sig .tc .vmem S1x512x6400 .f32) (h4 : a4.IsWhole) (a5 : Memref sig .tc .vmem S1x512x1 .f32) (h5 : a5.IsWhole)
    (a6 : Memref sig .tc .vmem S1x512x1 .f32) (h6 : a6.IsWhole) (hc0 : ¬cond0_0 i) (hc1 : ¬cond0_1 i)
    (x0 : Vec F S1x512x1 .i32) (x1 : Vec F S1x512x6400 .f32) (xs0 : Vec F S1x512x1 .f32) :
    sout0_B_0 c i a3 h3 a4 h4 a5 h5 a6 h6 hc0 hc1 x0 x1 xs0 = step i x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  unfold step
  simp only [View.readAt_eq_ld, h3.read_unread, h4.read_unread, h6.read_unread, View.ld_unit_zero (S := S1x512x1) hz,
    ld_chunk x1 0 (by omega), ld_chunk x1 1280 (by omega), ld_chunk x1 2560 (by omega), ld_chunk x1 3840 (by omega),
    ld_chunk x1 5120 (by omega)]

/-- The last tile: the accumulator ends at the step from what it held, -/
theorem sout_C (c : Dev nD) (i : grid0.Coords) (a3 : Memref sig .tc .vmem S1x512x1 .i32) (h3 : a3.IsWhole)
    (a4 : Memref sig .tc .vmem S1x512x6400 .f32) (h4 : a4.IsWhole) (a5 : Memref sig .tc .vmem S1x512x1 .f32) (h5 : a5.IsWhole)
    (a6 : Memref sig .tc .vmem S1x512x1 .f32) (h6 : a6.IsWhole) (hc0 : ¬cond0_0 i) (hc1 : cond0_1 i)
    (x0 : Vec F S1x512x1 .i32) (x1 : Vec F S1x512x6400 .f32) (xs0 : Vec F S1x512x1 .f32) :
    sout0_C_0 c i a3 h3 a4 h4 a5 h5 a6 h6 hc0 hc1 x0 x1 xs0 = step i x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  unfold step
  simp only [View.readAt_eq_ld, h3.read_unread, h4.read_unread, h6.read_unread, View.ld_unit_zero (S := S1x512x1) hz,
    ld_chunk x1 0 (by omega), ld_chunk x1 1280 (by omega), ld_chunk x1 2560 (by omega), ld_chunk x1 3840 (by omega),
    ld_chunk x1 5120 (by omega)]

/-- and the output block is a copy of it: its one covering store holds the accumulator read back after the update
    was stored. -/
theorem out_C (c : Dev nD) (i : grid0.Coords) (a3 : Memref sig .tc .vmem S1x512x1 .i32) (h3 : a3.IsWhole)
    (a4 : Memref sig .tc .vmem S1x512x6400 .f32) (h4 : a4.IsWhole) (a5 : Memref sig .tc .vmem S1x512x1 .f32) (h5 : a5.IsWhole)
    (a6 : Memref sig .tc .vmem S1x512x1 .f32) (h6 : a6.IsWhole) (hc0 : ¬cond0_0 i) (hc1 : cond0_1 i)
    (x0 : Vec F S1x512x1 .i32) (x1 : Vec F S1x512x6400 .f32) (xs0 : Vec F S1x512x1 .f32) :
    out0_C_2 c i a3 h3 a4 h4 a5 h5 a6 h6 hc0 hc1 x0 x1 xs0 = step i x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1x512x1) _ hz]
  unfold step
  simp only [View.readAt_eq_ld, h3.read_unread, h4.read_unread, h6.read_unread, View.ld_unit_zero (S := S1x512x1) hz,
    ld_chunk x1 0 (by omega), ld_chunk x1 1280 (by omega), ld_chunk x1 2560 (by omega), ld_chunk x1 3840 (by omega),
    ld_chunk x1 5120 (by omega)]

end Cert.NllGather.Kernel

end
-- ==== Proof.KernelStep.lean ====
/-
  One point's update of the accumulator, read at a row, over the extended reals: the old entry plus the
  row's entry at the label when the label lies in the point's tile of 6400 columns, plus 0 otherwise.
  Each of the five chunk sums adds the row's 1280 entries masked by "lane number = label − offset" in 32-bit
  arithmetic; for a lane below 1280 and an offset below 32000 that test holds exactly when the label, as a
  natural number, is offset + lane.
-/
import proofs.«402519_j87290915324014_3_alg».proof.Proof.KernelPieces
import proofs.«402519_j87290915324014_3_alg».proof.Proof.Spec
import Idealize.ShloMosaic.PureOps.Ideal.Laws
import Idealize.ShloMosaic.Lib.ValueLayout

noncomputable section

open scoped BigOperators
open Idealize.ShloMosaic Idealize.ShloMosaic.TcCoe Idealize.SL.Sem Idealize.ShloMosaic.ValueIdx

namespace Cert.NllGather.Kernel

open Cert.KernelIdeal Cert.KernelIdeal.Gen

/-! ## One chunk's masked lane sum read at a row -/

/-- A [1, 512] array cast to [1, 512, 1] reads, at (0, r, 0), the operand at (0, r). -/
private theorem shapeCast_keepdims_apply {α : Type} (x : S1x512.Idx → α) (h : S1x512.ShapeCasts S1x512x1) (r : Fin 512) :
    shapeCast S1x512x1 x h (ix3 (0 : Fin 1) r (0 : Fin 1)) = x (ix2 (0 : Fin 1) r) :=
  shapeCast_apply x h _ _ (by
    rw [Shape.rowMajor_val_three, Shape.rowMajor_val_two]
    show 0 * 512 + r.val = ((0 * 512 + r.val) * 1 + 0)
    omega)

/-- The masked lane sum of one chunk, as the program writes it: the chunk where "lane number = label − k", 0 elsewhere,
    summed over the 1280 lanes, as a [1, 512, 1] column. -/
private def chunkSum (cvec : Vec Ideal S1x512x1280 .f32) (tgt : IVec S1x512x1 32) (k : BitVec 32) : FVec Ideal S1x512x1 .f32 :=
  shapeCast S1x512x1
    (multiReduction .add [2] S1x512
      (select (cmpi .eq (iota .tc S1x512x1280 32 [2] iota_S1x512x1280_d2_w32)
          (broadcastTo S1x512x1280 (subi tgt (broadcast S1x512x1 k)) broadcasts_S1x512x1_S1x512x1280))
        cvec (broadcast S1x512x1280 (Scalar.ofBits .f32 0x00000000#32)))
      0x00000000#32 reduces_S1x512x1280_S1x512 (.inl rfl) rfl)
    shapeCasts_S1x512_S1x512x1

/-- A lane sum of a [1, 512, 1280] vector at row r is the sum over the 1280 lanes. -/
private theorem lane_sum_apply (src : FVec Ideal S1x512x1280 .f32) (hφ : FKind.Formats .f32)
    (hacc : (0x00000000#32 : BitVec 32) = 0x00000000#32) (r : Fin 512) :
    multiReduction .add [2] S1x512 src 0x00000000#32 reduces_S1x512x1280_S1x512 hφ hacc (ix2 (0 : Fin 1) r)
      = ∑ l : Fin 1280, src (ix3 (0 : Fin 1) r l) := by
  refine (Ideal.multiReduction_add_single src 0x00000000#32 reduces_S1x512x1280_S1x512 hφ hacc (ix2 (0 : Fin 1) r)).trans ?_
  refine Finset.sum_congr rfl fun l _ => congrArg src ?_
  funext a
  match a with
  | ⟨0, _⟩ => exact Fin.ext rfl
  | ⟨1, _⟩ => exact Fin.ext rfl
  | ⟨2, _⟩ => exact Fin.ext rfl

/-- A [1, 512, 1] column broadcast along the lanes reads its row's entry. -/
private theorem broadcast_lanes_apply {α : Type} (x : S1x512x1.Idx → α) (r : Fin 512) (l : Fin 1280) :
    broadcastTo S1x512x1280 x broadcasts_S1x512x1_S1x512x1280 (ix3 (0 : Fin 1) r l) = x (ix3 (0 : Fin 1) r (0 : Fin 1)) := by
  refine broadcastTo_apply x broadcasts_S1x512x1_S1x512x1280 (ix3 (0 : Fin 1) r l) (ix3 (0 : Fin 1) r (0 : Fin 1)) fun ax => ?_
  match ax with
  | ⟨0, _⟩ => rfl
  | ⟨1, _⟩ => rfl
  | ⟨2, _⟩ => rfl

/-- A select on a word comparison for equality is the `if` on the equality. -/
private theorem select_cmpi_eq {α : Type} (a b : BitVec 32) (x y : α) :
    Scalar.select (IntOp.cmpi .eq a b) x y = if a = b then x else y := by
  unfold Scalar.select IntOp.cmpi
  by_cases h : a = b
  · rw [if_pos h]; subst h; simp
  · rw [if_neg h]
    have hb : (a == b) = false := beq_eq_false_iff_ne.2 h
    show (if BitVec.ofBool (a == b) = 1 then x else y) = y
    rw [hb]
    exact if_neg (by decide)

/-- One chunk's masked lane sum at row r. -/
private theorem chunkSum_apply (cvec : Vec Ideal S1x512x1280 .f32) (tgt : IVec S1x512x1 32) (k : BitVec 32) (r : Fin 512) :
    chunkSum cvec tgt k (ix3 (0 : Fin 1) r (0 : Fin 1))
      = ∑ l : Fin 1280, (if BitVec.ofNat 32 l.val = tgt (ix3 (0 : Fin 1) r (0 : Fin 1)) - k
          then (cvec (ix3 (0 : Fin 1) r l) : EReal) else 0) := by
  unfold chunkSum
  refine (shapeCast_keepdims_apply _ _ r).trans ?_
  refine (lane_sum_apply _ _ _ r).trans ?_
  refine Finset.sum_congr rfl fun l _ => ?_
  refine (select_apply _ _ _ _).trans ?_
  show Scalar.select (IntOp.cmpi .eq (iota .tc S1x512x1280 32 [2] iota_S1x512x1280_d2_w32 (ix3 (0 : Fin 1) r l))
      (broadcastTo S1x512x1280 (subi tgt (broadcast S1x512x1 k)) broadcasts_S1x512x1_S1x512x1280 (ix3 (0 : Fin 1) r l)))
      (cvec (ix3 (0 : Fin 1) r l)) (Ideal.ofBits .f32 0x00000000#32) = _
  rw [iota_single_apply, broadcast_lanes_apply, Ideal.ofBits_zero_f32, select_cmpi_eq]
  rfl

/-! ## The 32-bit test "lane = label − offset" and the masked sum -/

/-- For a lane l and an offset n with n + l below 2^32, "lane = label − n" in 32-bit words says the label is n + l. -/
private theorem lane_eq_iff (w : BitVec 32) (n l : Nat) (h : n + l < 2 ^ 32) :
    BitVec.ofNat 32 l = w - BitVec.ofNat 32 n ↔ w.toNat = n + l := by
  constructor
  · intro e
    have e2 : w = BitVec.ofNat 32 l + BitVec.ofNat 32 n := by rw [e, BitVec.sub_add_cancel]
    rw [e2, BitVec.toNat_add, BitVec.toNat_ofNat, BitVec.toNat_ofNat]
    omega
  · intro e
    apply BitVec.eq_of_toNat_eq
    rw [BitVec.toNat_sub, BitVec.toNat_ofNat, BitVec.toNat_ofNat, e]
    omega

/-- The masked sum over a chunk's 1280 lanes: the chunk's entry at label − n when the label lies in
    [n, n + 1280), else 0. -/
private theorem masked_sum (w : BitVec 32) (n : Nat) (hn : n + 1280 ≤ 2 ^ 32) (c : Fin 1280 → EReal) :
    (∑ l : Fin 1280, if BitVec.ofNat 32 l.val = w - BitVec.ofNat 32 n then c l else 0)
      = if h : n ≤ w.toNat ∧ w.toNat < n + 1280 then c ⟨w.toNat - n, by omega⟩ else 0 := by
  by_cases h : n ≤ w.toNat ∧ w.toNat < n + 1280
  · rw [dif_pos h]
    refine Eq.trans (Finset.sum_congr rfl fun l _ => ?_) (sum_ite_eq_single (⟨w.toNat - n, by omega⟩ : Fin 1280) c)
    have hl : l.val < 1280 := l.isLt
    by_cases e : l = (⟨w.toNat - n, by omega⟩ : Fin 1280)
    · rw [if_pos e, if_pos ((lane_eq_iff w n l.val (by omega)).2 (by rw [e]; show w.toNat = n + (w.toNat - n); omega))]
    · rw [if_neg e, if_neg (fun e' => e (Fin.ext (by
        have := (lane_eq_iff w n l.val (by omega)).1 e'
        show l.val = w.toNat - n
        omega)))]
  · rw [dif_neg h]
    refine Finset.sum_eq_zero fun l _ => ?_
    have hl : l.val < 1280 := l.isLt
    rw [if_neg (fun e' => h (by
      have := (lane_eq_iff w n l.val (by omega)).1 e'
      omega))]

/-- The word the program subtracts for tile v and chunk offset off is the number 6400 v + off. -/
private theorem offset_word (v off : Nat) :
    Scalar.addi (Scalar.muli (BitVec.ofNat 32 v) 6400#32) (BitVec.ofNat 32 off) = BitVec.ofNat 32 (v * 6400 + off) := by
  unfold Scalar.addi Scalar.muli IntOp.addi IntOp.muli
  rw [BitVec.ofNat_add, BitVec.ofNat_mul]

/-! ## Five chunks make the tile -/

/-- What the chunk of 1280 columns at offset off of tile v contributes to a row: the row's entry at the label when the
    label lies in the chunk, else 0. -/
private def chunkHit (v off : Nat) (w : BitVec 32) (row : Fin 6400 → EReal) : EReal :=
  if h : (v * 6400 + off ≤ w.toNat ∧ w.toNat < v * 6400 + off + 1280) ∧ off + 1280 ≤ 6400
    then row ⟨w.toNat - v * 6400, by omega⟩ else 0

private theorem chunkHit_pos (v off : Nat) (w : BitVec 32) (row : Fin 6400 → EReal)
    (h : (v * 6400 + off ≤ w.toNat ∧ w.toNat < v * 6400 + off + 1280) ∧ off + 1280 ≤ 6400) :
    chunkHit v off w row = row ⟨w.toNat - v * 6400, by omega⟩ := dif_pos h

private theorem chunkHit_neg (v off : Nat) (w : BitVec 32) (row : Fin 6400 → EReal)
    (h : ¬((v * 6400 + off ≤ w.toNat ∧ w.toNat < v * 6400 + off + 1280) ∧ off + 1280 ≤ 6400)) :
    chunkHit v off w row = 0 := dif_neg h

/-- The masked lane sum over the chunk at offset off of a row of tile v is that chunk's contribution. -/
private theorem masked_sum_chunk (v off : Nat) (hoff : off + 1280 ≤ 6400) (hv : v < 5) (w : BitVec 32) (row : Fin 6400 → EReal) :
    (∑ l : Fin 1280, if BitVec.ofNat 32 l.val = w - BitVec.ofNat 32 (v * 6400 + off)
        then row ⟨off + l.val, by have := l.isLt; omega⟩ else 0)
      = chunkHit v off w row := by
  refine (masked_sum w (v * 6400 + off) (by omega) (fun l => row ⟨off + l.val, by have := l.isLt; omega⟩)).trans ?_
  by_cases h : v * 6400 + off ≤ w.toNat ∧ w.toNat < v * 6400 + off + 1280
  · rw [dif_pos h, chunkHit_pos v off w row ⟨h, hoff⟩]
    exact congrArg row (Fin.ext (by show off + (w.toNat - (v * 6400 + off)) = w.toNat - v * 6400; omega))
  · rw [dif_neg h, chunkHit_neg v off w row (fun h' => h h'.1)]

/-- Five consecutive chunks of 1280 columns make the tile of 6400: at most one of them holds the label. -/
private theorem five_chunks (v : Nat) (w : BitVec 32) (row : Fin 6400 → EReal) :
    ((((0 + chunkHit v 0 w row) + chunkHit v 1280 w row) + chunkHit v 2560 w row) + chunkHit v 3840 w row)
        + chunkHit v 5120 w row
      = tileHit v w row := by
  unfold tileHit
  by_cases ht : v * 6400 ≤ w.toNat ∧ w.toNat < v * 6400 + 6400
  · rw [dif_pos ht]
    by_cases c0 : w.toNat < v * 6400 + 1280
    · rw [chunkHit_pos v 0 w row (by omega), chunkHit_neg v 1280 w row (by omega), chunkHit_neg v 2560 w row (by omega),
        chunkHit_neg v 3840 w row (by omega), chunkHit_neg v 5120 w row (by omega)]
      simp only [zero_add, add_zero]
    · by_cases c1 : w.toNat < v * 6400 + 2560
      · rw [chunkHit_neg v 0 w row (by omega), chunkHit_pos v 1280 w row (by omega), chunkHit_neg v 2560 w row (by omega),
          chunkHit_neg v 3840 w row (by omega), chunkHit_neg v 5120 w row (by omega)]
        simp only [zero_add, add_zero]
      · by_cases c2 : w.toNat < v * 6400 + 3840
        · rw [chunkHit_neg v 0 w row (by omega), chunkHit_neg v 1280 w row (by omega), chunkHit_pos v 2560 w row (by omega),
            chunkHit_neg v 3840 w row (by omega), chunkHit_neg v 5120 w row (by omega)]
          simp only [zero_add, add_zero]
        · by_cases c3 : w.toNat < v * 6400 + 5120
          · rw [chunkHit_neg v 0 w row (by omega), chunkHit_neg v 1280 w row (by omega), chunkHit_neg v 2560 w row (by omega),
              chunkHit_pos v 3840 w row (by omega), chunkHit_neg v 5120 w row (by omega)]
            simp only [zero_add, add_zero]
          · rw [chunkHit_neg v 0 w row (by omega), chunkHit_neg v 1280 w row (by omega), chunkHit_neg v 2560 w row (by omega),
              chunkHit_neg v 3840 w row (by omega), chunkHit_pos v 5120 w row (by omega)]
            simp only [zero_add, add_zero]
  · rw [dif_neg ht, chunkHit_neg v 0 w row (by omega), chunkHit_neg v 1280 w row (by omega), chunkHit_neg v 2560 w row (by omega),
      chunkHit_neg v 3840 w row (by omega), chunkHit_neg v 5120 w row (by omega)]
    simp only [zero_add, add_zero]

/-! ## The zero block and the step -/

/-- The zero block is 0 everywhere. -/
theorem zeroBlk_apply (j : S1x512x1.Idx) : (zeroBlk (F := Ideal)) j = (0 : EReal) := by
  unfold zeroBlk k0_pay2
  rw [shapeCast_self]
  exact Ideal.ofBits_zero_f32

/-- The step is the old contents plus the five chunk sums, added in the program's order. -/
private theorem step_eq (i : grid0.Coords) (x0 : Vec Ideal S1x512x1 .i32) (x1 : Vec Ideal S1x512x6400 .f32)
    (xs : Vec Ideal S1x512x1 .f32) :
    step (F := Ideal) i x0 x1 xs
      = shapeCast S1x512x1
          (addf xs
            (addf (addf (addf (addf (addf (broadcast S1x512x1 (Scalar.ofBits (F := Ideal) .f32 0x00000000#32))
              (chunkSum (chunk x1 0 (by omega)) (shapeCast S1x512x1 x0 shapeCasts_S1x512x1_S1x512x1)
                (Scalar.addi (Scalar.muli (BitVec.ofNat 32 (i 2).val) 6400#32) 0#32)))
              (chunkSum (chunk x1 1280 (by omega)) (shapeCast S1x512x1 x0 shapeCasts_S1x512x1_S1x512x1)
                (Scalar.addi (Scalar.muli (BitVec.ofNat 32 (i 2).val) 6400#32) 1280#32)))
              (chunkSum (chunk x1 2560 (by omega)) (shapeCast S1x512x1 x0 shapeCasts_S1x512x1_S1x512x1)
                (Scalar.addi (Scalar.muli (BitVec.ofNat 32 (i 2).val) 6400#32) 2560#32)))
              (chunkSum (chunk x1 3840 (by omega)) (shapeCast S1x512x1 x0 shapeCasts_S1x512x1_S1x512x1)
                (Scalar.addi (Scalar.muli (BitVec.ofNat 32 (i 2).val) 6400#32) 3840#32)))
              (chunkSum (chunk x1 5120 (by omega)) (shapeCast S1x512x1 x0 shapeCasts_S1x512x1_S1x512x1)
                (Scalar.addi (Scalar.muli (BitVec.ofNat 32 (i 2).val) 6400#32) 5120#32))))
          shapeCasts_S1x512x1_S1x512x1 := rfl

/-- One chunk sum of the step at row r, in closed form. -/
private theorem chunkSum_chunk_apply (v off : Nat) (hoff : off + 1280 ≤ 6400) (hv : v < 5) (x0 : IVec S1x512x1 32)
    (x1 : Vec Ideal S1x512x6400 .f32) (r : Fin 512) :
    chunkSum (chunk x1 off hoff) x0 (Scalar.addi (Scalar.muli (BitVec.ofNat 32 v) 6400#32) (BitVec.ofNat 32 off))
        (ix3 (0 : Fin 1) r (0 : Fin 1))
      = chunkHit v off (x0 (ix3 (0 : Fin 1) r (0 : Fin 1))) (fun l : Fin 6400 => x1 (ix3 (0 : Fin 1) r l)) := by
  rw [chunkSum_apply, offset_word]
  exact masked_sum_chunk v off hoff hv (x0 (ix3 (0 : Fin 1) r (0 : Fin 1))) (fun l : Fin 6400 => x1 (ix3 (0 : Fin 1) r l))

/-- The step at row `r`: the old entry plus what tile `i 2` contributes. -/
theorem step_apply (i : grid0.Coords) (x0 : Vec Ideal S1x512x1 .i32) (x1 : Vec Ideal S1x512x6400 .f32)
    (xs : Vec Ideal S1x512x1 .f32) (r : Fin 512) :
    step (F := Ideal) i x0 x1 xs (ix3 (0 : Fin 1) r (0 : Fin 1))
      = (xs (ix3 (0 : Fin 1) r (0 : Fin 1)) : EReal)
        + tileHit (i 2).val (x0 (ix3 (0 : Fin 1) r (0 : Fin 1))) (fun l : Fin 6400 => x1 (ix3 (0 : Fin 1) r l)) := by
  have hv : (i 2).val < 5 := (i 2).isLt
  rw [step_eq, shapeCast_self, shapeCast_self]
  show (xs (ix3 (0 : Fin 1) r (0 : Fin 1)) : EReal)
      + (((((Ideal.ofBits .f32 0x00000000#32
        + chunkSum (chunk x1 0 (by omega)) x0 (Scalar.addi (Scalar.muli (BitVec.ofNat 32 (i 2).val) 6400#32) (BitVec.ofNat 32 0)) (ix3 (0 : Fin 1) r (0 : Fin 1)))
        + chunkSum (chunk x1 1280 (by omega)) x0 (Scalar.addi (Scalar.muli (BitVec.ofNat 32 (i 2).val) 6400#32) (BitVec.ofNat 32 1280)) (ix3 (0 : Fin 1) r (0 : Fin 1)))
        + chunkSum (chunk x1 2560 (by omega)) x0 (Scalar.addi (Scalar.muli (BitVec.ofNat 32 (i 2).val) 6400#32) (BitVec.ofNat 32 2560)) (ix3 (0 : Fin 1) r (0 : Fin 1)))
        + chunkSum (chunk x1 3840 (by omega)) x0 (Scalar.addi (Scalar.muli (BitVec.ofNat 32 (i 2).val) 6400#32) (BitVec.ofNat 32 3840)) (ix3 (0 : Fin 1) r (0 : Fin 1)))
        + chunkSum (chunk x1 5120 (by omega)) x0 (Scalar.addi (Scalar.muli (BitVec.ofNat 32 (i 2).val) 6400#32) (BitVec.ofNat 32 5120)) (ix3 (0 : Fin 1) r (0 : Fin 1)))
    = _
  rw [chunkSum_chunk_apply (i 2).val 0 (by omega) hv, chunkSum_chunk_apply (i 2).val 1280 (by omega) hv,
    chunkSum_chunk_apply (i 2).val 2560 (by omega) hv, chunkSum_chunk_apply (i 2).val 3840 (by omega) hv,
    chunkSum_chunk_apply (i 2).val 5120 (by omega) hv, Ideal.ofBits_zero_f32, five_chunks]

end Cert.NllGather.Kernel

end
-- ==== Proof.KernelArray.lean ====
/-
  The kernel's result array. Along a row block the accumulator after tile `v` holds, at each row, the row's
  entry at the label when the label is below `6400 (v + 1)`, else 0 (induction on the grid point; the tiles of
  a row block are consecutive points). The last tile copies the accumulator into the output block, the one
  block written back for that row block, and the sixteen row blocks tile the [8, 1024, 1] array: the array
  ends at `picked` of the two arguments.
-/
import proofs.«402519_j87290915324014_3_alg».proof.Proof.KernelStep
import proofs.«402519_j87290915324014_3_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.NllGather.Kernel

open Cert.KernelIdeal Cert.KernelIdeal.Gen

variable (m : (ℓ : Loc nD τ sig) → Buf (Elt Ideal) ℓ)

/-- The label block and the block of log-probabilities the body is called with at point `t`. -/
abbrev tblk (c : Dev nD) (t : Fin cfg0.N) : Vec Ideal S1x512x1 .i32 := iblk m c 0 t
abbrev xblk (c : Dev nD) (t : Fin cfg0.N) : Vec Ideal S1x512x6400 .f32 := iblk m c 1 t
/-- The two arguments as launched. -/
abbrev xarr (c : Dev nD) : (⟨3, ![8, 1024, 32000]⟩ : Shape).Idx → EReal := m ((c.tc : Thread nD τ).loc main_arg0)
abbrev tgarr (c : Dev nD) : (⟨2, ![8, 1024]⟩ : Shape).Idx → BitVec 32 := m ((c.tc : Thread nD τ).loc main_arg1)

/-- Point `t` of the grid [8, 2, 5] has batch `t / 10`, row block `(t / 5) % 2` and tile `t % 5`; the label and
    output windows follow the batch and the row block, the window of log-probabilities all three. -/
theorem idx_facts : ∀ t : Fin cfg0.N,
    (win0_0.index t 0 = t.val / 10 ∧ win0_0.index t 1 = (t.val / 5) % 2 ∧ win0_0.index t 2 = 0)
    ∧ (win0_1.index t 0 = t.val / 10 ∧ win0_1.index t 1 = (t.val / 5) % 2 ∧ win0_1.index t 2 = t.val % 5)
    ∧ (win0_2.index t 0 = t.val / 10 ∧ win0_2.index t 1 = (t.val / 5) % 2 ∧ win0_2.index t 2 = 0)
    ∧ ((grid0.coords t) 2).val = t.val % 5 :=
  (by decide +kernel : ∀ t : Fin grid0.N, _)

/-- The label window's array, as the region finds it, is the labels with a unit axis appended. -/
theorem V_main_v0 (c : Dev nD) : (V m c main_v0 : (⟨3, ![8, 1024, 1]⟩ : Shape).Idx → BitVec 32)
    = broadcastInDim S8x1024x1 ![0, 1] bcast_S8x1024_S8x1024x1_0_1 (tgarr m c) := by
  dsimp only [Gen.V, Gen.V0]
  simp only [hostOps0, List.flatten_cons, List.flatten_nil, List.append_nil]
  after_results

/-- Row `r` of point `t`'s label block is the label of batch `t / 10`, row `512 ((t / 5) % 2) + r`. -/
theorem tblk_apply (c : Dev nD) (t : Fin cfg0.N) (r : Fin 512) (b : Fin 8) (row : Fin 1024)
    (hb : b.val = t.val / 10) (hrow : row.val = ((t.val / 5) % 2) * 512 + r.val) :
    tblk m c t (ix3 (0 : Fin 1) r (0 : Fin 1)) = tgarr m c (ix2 b row) := by
  obtain ⟨⟨e0, e1, e2⟩, -, -, -⟩ := idx_facts t
  unfold tblk iblk
  rw [View.read_apply]
  show (V m c main_v0 : (⟨3, ![8, 1024, 1]⟩ : Shape).Idx → BitVec 32) _ = _
  rw [V_main_v0]
  unfold broadcastInDim
  congr 1
  funext a
  match a with
  | ⟨0, _⟩ =>
    rw [dif_neg (by show ¬ (8 : Nat) = 1; omega)]
    apply Fin.ext
    show win0_0.index t 0 * 1 + 1 * 0 = b.val
    omega
  | ⟨1, _⟩ =>
    rw [dif_neg (by show ¬ (1024 : Nat) = 1; omega)]
    apply Fin.ext
    show win0_0.index t 1 * 512 + 1 * r.val = row.val
    omega

/-- Row `r`, column `l` of point `t`'s block of log-probabilities is the entry of batch `t / 10`, row
    `512 ((t / 5) % 2) + r`, column `6400 (t % 5) + l`. -/
theorem xblk_apply (c : Dev nD) (t : Fin cfg0.N) (r : Fin 512) (l : Fin 6400) (b : Fin 8) (row : Fin 1024) (col : Fin 32000)
    (hb : b.val = t.val / 10) (hrow : row.val = ((t.val / 5) % 2) * 512 + r.val) (hcol : col.val = (t.val % 5) * 6400 + l.val) :
    xblk m c t (ix3 (0 : Fin 1) r l) = xarr m c (ix3 b row col) := by
  obtain ⟨-, ⟨e0, e1, e2⟩, -, -⟩ := idx_facts t
  unfold xblk iblk
  rw [View.read_apply]
  show (V m c main_arg0 : (⟨3, ![8, 1024, 32000]⟩ : Shape).Idx → EReal) _ = _
  rw [V_main_arg0]
  congr 1
  funext a
  match a with
  | ⟨0, _⟩ =>
    apply Fin.ext
    show win0_1.index t 0 * 1 + 1 * 0 = b.val
    omega
  | ⟨1, _⟩ =>
    apply Fin.ext
    show win0_1.index t 1 * 512 + 1 * r.val = row.val
    omega
  | ⟨2, _⟩ =>
    apply Fin.ext
    show win0_1.index t 2 * 6400 + 1 * l.val = col.val
    omega

/-- What the tiles `0 … v` contribute to a row with label `w` and entries `f`: the entry at the label when the
    label is a column below `6400 (v + 1)`, else 0. -/
def accTo (v : Nat) (w : BitVec 32) (f : Fin 32000 → EReal) : EReal :=
  if h : w.toNat < (v + 1) * 6400 ∧ w.toNat < 32000 then f ⟨w.toNat, h.2⟩ else 0

/-- What tile `v` alone contributes. -/
def hitAt (v : Nat) (w : BitVec 32) (f : Fin 32000 → EReal) : EReal :=
  if h : (v * 6400 ≤ w.toNat ∧ w.toNat < v * 6400 + 6400) ∧ w.toNat < 32000 then f ⟨w.toNat, h.2⟩ else 0

/-- A tile's contribution, when the tile's entries are the row's entries at the tile's columns. -/
theorem tileHit_eq_hitAt (v : Nat) (hv : v < 5) (w : BitVec 32) (f : Fin 32000 → EReal) (row : Fin 6400 → EReal)
    (hrow : ∀ (l : Fin 6400) (col : Fin 32000), col.val = v * 6400 + l.val → row l = f col) :
    tileHit v w row = hitAt v w f := by
  unfold tileHit hitAt
  by_cases h : v * 6400 ≤ w.toNat ∧ w.toNat < v * 6400 + 6400
  · have h2 : w.toNat < 32000 := by omega
    rw [dif_pos h, dif_pos ⟨h, h2⟩]
    exact hrow _ _ (by show w.toNat = v * 6400 + (w.toNat - v * 6400); omega)
  · rw [dif_neg h, dif_neg (fun hh => h hh.1)]

/-- The first tile's contribution on top of the zero block. -/
theorem acc_first (w : BitVec 32) (f : Fin 32000 → EReal) : (0 : EReal) + hitAt 0 w f = accTo 0 w f := by
  unfold hitAt accTo
  rw [zero_add]
  by_cases h : w.toNat < (0 + 1) * 6400 ∧ w.toNat < 32000
  · rw [dif_pos h, dif_pos ⟨⟨by omega, by omega⟩, h.2⟩]
  · rw [dif_neg h, dif_neg (fun hh => h ⟨by omega, hh.2⟩)]

/-- One more tile: the label is below `6400 (v + 2)` exactly when it is below `6400 (v + 1)` or in tile `v + 1`,
    and not both; 0 is neutral for the sum whatever the entry. -/
theorem acc_next (v : Nat) (w : BitVec 32) (f : Fin 32000 → EReal) :
    accTo v w f + hitAt (v + 1) w f = accTo (v + 1) w f := by
  unfold hitAt accTo
  by_cases h1 : w.toNat < (v + 1) * 6400 ∧ w.toNat < 32000
  · rw [dif_pos h1, dif_neg (fun hh => by omega), add_zero, dif_pos ⟨by omega, h1.2⟩]
  · rw [dif_neg h1, zero_add]
    by_cases h2 : ((v + 1) * 6400 ≤ w.toNat ∧ w.toNat < (v + 1) * 6400 + 6400) ∧ w.toNat < 32000
    · rw [dif_pos h2, dif_pos ⟨by omega, h2.2⟩]
    · rw [dif_neg h2, dif_neg (fun hh => by omega)]

/-- After the five tiles: the picked entry. -/
theorem acc_last (w : BitVec 32) (f : Fin 32000 → EReal) :
    accTo 4 w f = if h : w.toNat < 32000 then f ⟨w.toNat, h⟩ else 0 := by
  unfold accTo
  by_cases h : w.toNat < 32000
  · rw [dif_pos h, dif_pos ⟨by omega, h⟩]
  · rw [dif_neg h, dif_neg (fun hh => h hh.2)]

/-- One point's step at a row: the old entry plus the contribution of the point's tile to that row. -/
theorem step_row (c : Dev nD) (t : Fin cfg0.N) (r : Fin 512) (b : Fin 8) (row : Fin 1024)
    (hb : b.val = t.val / 10) (hrow : row.val = ((t.val / 5) % 2) * 512 + r.val) (xs : Vec Ideal S1x512x1 .f32) :
    step (F := Ideal) (grid0.coords t) (tblk m c t) (xblk m c t) xs (ix3 (0 : Fin 1) r (0 : Fin 1))
      = (xs (ix3 (0 : Fin 1) r (0 : Fin 1)) : EReal)
        + hitAt (t.val % 5) (tgarr m c (ix2 b row)) (fun col => xarr m c (ix3 b row col)) := by
  refine (step_apply (grid0.coords t) (tblk m c t) (xblk m c t) xs r).trans ?_
  rw [tblk_apply m c t r b row hb hrow, (idx_facts t).2.2.2]
  exact congrArg (fun z => (xs (ix3 (0 : Fin 1) r (0 : Fin 1)) : EReal) + z)
    (tileHit_eq_hitAt (t.val % 5) (Nat.mod_lt _ (by omega)) (tgarr m c (ix2 b row)) (fun col => xarr m c (ix3 b row col))
      (fun l : Fin 6400 => xblk m c t (ix3 (0 : Fin 1) r l))
      (fun l col hcol => xblk_apply m c t r l b row col hb hrow hcol))

/-- THE INVARIANT. After point `n` the accumulator holds, at row `r`, what the tiles `0 … n % 5` contribute to
    the row `512 ((n / 5) % 2) + r` of batch `n / 10`: by induction on the point. At the first tile of a row block
    the accumulator restarts from the zero block; at a later tile the point before is in the same row block. -/
theorem acc_inv (c : Dev nD) : ∀ (n : ℕ) (hn : n < cfg0.N) (r : Fin 512) (b : Fin 8) (row : Fin 1024),
    b.val = n / 10 → row.val = ((n / 5) % 2) * 512 + r.val →
    ((outsAt0 m c n hn).2 (ix3 (0 : Fin 1) r (0 : Fin 1)) : EReal)
      = accTo (n % 5) (tgarr m c (ix2 b row)) (fun col => xarr m c (ix3 b row col)) := by
  intro n
  induction n using Nat.strong_induction_on with
  | _ n ih =>
    intro hn r b row hb hrow
    have hN : cfg0.N = 80 := N_0
    by_cases h0 : n % 5 = 0
    · have h1 : ¬ n % 5 = 4 := by omega
      rw [outsAt0_A m c ⟨n, hn⟩ h0 h1]
      dsimp only
      refine (congrFun (sout_A c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) scM0_0 (Memref.isWhole_whole _) ((hcond0_0 ⟨n, hn⟩).mpr h0)
        (fun h => h1 ((hcond0_1 ⟨n, hn⟩).mp h)) (tblk m c ⟨n, hn⟩) (xblk m c ⟨n, hn⟩)) (ix3 (0 : Fin 1) r (0 : Fin 1))).trans ?_
      refine (step_row m c ⟨n, hn⟩ r b row hb hrow zeroBlk).trans ?_
      rw [zeroBlk_apply]
      show (0 : EReal) + hitAt (n % 5) _ _ = _
      rw [h0]
      exact acc_first _ _
    · have hp : n - 1 < n := by omega
      have hb' : b.val = (n - 1) / 10 := by omega
      have hrow' : row.val = (((n - 1) / 5) % 2) * 512 + r.val := by omega
      have hv : n % 5 = (n - 1) % 5 + 1 := by omega
      by_cases h1 : n % 5 = 4
      · rw [outsAt0_C m c ⟨n, hn⟩ h0 h1]
        dsimp only
        refine (congrFun (sout_C c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun h => h0 ((hcond0_0 ⟨n, hn⟩).mp h))
          ((hcond0_1 ⟨n, hn⟩).mpr h1) (tblk m c ⟨n, hn⟩) (xblk m c ⟨n, hn⟩)
          (outsAt0 m c (n - 1) (Nat.lt_of_le_of_lt (Nat.sub_le _ _) hn)).2) (ix3 (0 : Fin 1) r (0 : Fin 1))).trans ?_
        refine (step_row m c ⟨n, hn⟩ r b row hb hrow _).trans ?_
        rw [ih (n - 1) hp _ r b row hb' hrow']
        show accTo ((n - 1) % 5) _ _ + hitAt (n % 5) _ _ = _
        rw [hv]
        exact acc_next _ _ _
      · rw [outsAt0_B m c ⟨n, hn⟩ h0 h1]
        dsimp only
        refine (congrFun (sout_B c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun h => h0 ((hcond0_0 ⟨n, hn⟩).mp h))
          (fun h => h1 ((hcond0_1 ⟨n, hn⟩).mp h)) (tblk m c ⟨n, hn⟩) (xblk m c ⟨n, hn⟩)
          (outsAt0 m c (n - 1) (Nat.lt_of_le_of_lt (Nat.sub_le _ _) hn)).2) (ix3 (0 : Fin 1) r (0 : Fin 1))).trans ?_
        refine (step_row m c ⟨n, hn⟩ r b row hb hrow _).trans ?_
        rw [ih (n - 1) hp _ r b row hb' hrow']
        show accTo ((n - 1) % 5) _ _ + hitAt (n % 5) _ _ = _
        rw [hv]
        exact acc_next _ _ _

/-- At the last tile of a row block the output block is the same step value: at row `r` the picked entry of the
    row `512 ((t / 5) % 2) + r` of batch `t / 10` (a label that is no column hits no tile: 0). -/
theorem out_last (c : Dev nD) (t : Fin cfg0.N) (h4 : t.val % 5 = 4) (r : Fin 512) (b : Fin 8) (row : Fin 1024)
    (hb : b.val = t.val / 10) (hrow : row.val = ((t.val / 5) % 2) * 512 + r.val) :
    ((outsAt0 m c t.val t.isLt).1 (ix3 (0 : Fin 1) r (0 : Fin 1)) : EReal) = pickAt (xarr m c) (tgarr m c) b row := by
  have hN : cfg0.N = 80 := N_0
  have hlt : t.val < 80 := lt_of_lt_of_eq t.isLt hN
  have h0 : ¬ t.val % 5 = 0 := by omega
  have hb' : b.val = (t.val - 1) / 10 := by omega
  have hrow' : row.val = (((t.val - 1) / 5) % 2) * 512 + r.val := by omega
  have hv : (t.val - 1) % 5 = 3 := by omega
  rw [outsAt0_C m c t h0 h4]
  dsimp only
  refine (congrFun (out_C c (grid0.coords t) (ms0_0 t) (hs0_0 t) (ms0_1 t) (hs0_1 t)
    (ms0_2 t) (hs0_2 t) scM0_0 (Memref.isWhole_whole _) (fun h => h0 ((hcond0_0 t).mp h))
    ((hcond0_1 t).mpr h4) (tblk m c t) (xblk m c t)
    (outsAt0 m c (t.val - 1) (Nat.lt_of_le_of_lt (Nat.sub_le _ _) t.isLt)).2) (ix3 (0 : Fin 1) r (0 : Fin 1))).trans ?_
  refine (step_row m c t r b row hb hrow _).trans ?_
  rw [acc_inv m c (t.val - 1) _ r b row hb' hrow', hv, h4, acc_next, acc_last]
  rfl

/-- WHAT A WRITE-BACK WRITES: at a point that writes the output block back (the last tile of a row block) the block
    is that block of `picked` of the two arguments. -/
theorem flushed_eq (c : Dev nD) (t : Fin cfg0.N) (hf : (cfg0.win 2).flush t = true) :
    (dats m 0 c).flushed 2 t = ((cfg0.win 2).blk t).view.read (Elt Ideal) (picked (xarr m c) (tgarr m c)) := by
  have h4 : t.val % 5 = 4 := (flush0_2 t).mp hf
  obtain ⟨-, -, ⟨e0, e1, e2⟩, -⟩ := idx_facts t
  show (cfg0.win 2).cut (grid0.coords t) ((dats m 0 c).after 2 t) = _
  rw [after0_2]
  refine funext fun (j : S1x512x1.Idx) => ?_
  rw [View.read_apply]
  obtain ⟨r, rfl⟩ : ∃ r : Fin 512, j = ix3 (0 : Fin 1) r (0 : Fin 1) := by
    refine ⟨j 1, funext fun a => ?_⟩
    match a with
    | ⟨0, _⟩ => exact Subsingleton.elim (α := Fin 1) _ _
    | ⟨1, _⟩ => rfl
    | ⟨2, _⟩ => exact Subsingleton.elim (α := Fin 1) _ _
  show ((outsAt0 m c t.val t.isLt).1 (ix3 (0 : Fin 1) r (0 : Fin 1)) : EReal)
    = pickAt (xarr m c) (tgarr m c) ((((cfg0.win 2).blk t).view.emb (ix3 (0 : Fin 1) r (0 : Fin 1))) 0)
        ((((cfg0.win 2).blk t).view.emb (ix3 (0 : Fin 1) r (0 : Fin 1))) 1)
  exact out_last m c t h4 r _ _
    (by show win0_2.index t 0 * 1 + 1 * 0 = t.val / 10; omega)
    (by show win0_2.index t 1 * 512 + 1 * r.val = ((t.val / 5) % 2) * 512 + r.val; omega)

/-- An index of the [8, 1024, 1] array is in point `t`'s output block iff each coordinate is in the block's range. -/
theorem mem_blk (t : Fin cfg0.N) (i : S8x1024x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v1).slice (win0_2.rect t)).set ↔ _
  rw [View.set_slice_whole, Rect.mem_set_unit]
  exact Iff.rfl

/-- The sixteen written-back blocks tile the array: row `q` of batch `b` is in the block written at the last tile
    of row block `q / 512` of batch `b`. -/
theorem cover (i : S8x1024x1.Idx) : ∃ t : Fin cfg0.N, (cfg0.win 2).flush t = true ∧ i ∈ ((cfg0.win 2).blk t).view.set := by
  have hN : cfg0.N = 80 := N_0
  have h0 : (i 0).val < 8 := (i 0).isLt
  have h1 : (i 1).val < 1024 := (i 1).isLt
  have h2 : (i 2).val < 1 := (i 2).isLt
  let t : Fin cfg0.N := ⟨(i 0).val * 10 + ((i 1).val / 512) * 5 + 4, by omega⟩
  have ht : t.val = (i 0).val * 10 + ((i 1).val / 512) * 5 + 4 := rfl
  obtain ⟨-, -, ⟨e0, e1, e2⟩, -⟩ := idx_facts t
  refine ⟨t, (flush0_2 t).mpr (by omega), ?_⟩
  rw [mem_blk]
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 1 ≤ (i 2).val ∧ (i 2).val < win0_2.index t 2 * 1 + 1; omega

/-- After the region the result array holds the picked entries of the two arguments as launched. -/
theorem kernel_array (c : Dev nD) :
    (dats m 0 c).arrAt 2 cfg0.N
      = picked (m ((c.tc : Thread nD τ).loc main_arg0)) (m ((c.tc : Thread nD τ).loc main_arg1)) :=
  (dats m 0 c).arrAt_eq_of_cover 2 (picked (xarr m c) (tgarr m c)) (flushed_eq m c) cover

end Cert.NllGather.Kernel

end
-- ==== Proof.KernelRun.lean ====
/-
  The kernel program's run, read at its result: the host operations after the region (the reshape, the
  negation, the first index of the end-of-sequence label per sequence, the position mask, the masked row
  sums, the division by that index, the final sum) applied to the region's result array, which holds the
  picked entries.
-/
import proofs.«402519_j87290915324014_3_alg».proof.Proof.KernelArray
import Idealize.ShloMosaic.Lib.StableHlo.Run

noncomputable section

open Idealize.ShloMosaic Idealize.ShloMosaic.TcCoe Idealize.SL.Sem Idealize.ShloMosaic.ValueIdx

namespace Cert.NllGather

open Cert.KernelIdeal Cert.KernelIdeal.Gen

/-- The host operations after the region, as one function of the region's result array `g` and the labels. -/
def kernelTail (g : (⟨3, ![8, 1024, 1]⟩ : Shape).Idx → EReal) (tg : (⟨2, ![8, 1024]⟩ : Shape).Idx → BitVec 32) :
    (⟨0, ![]⟩ : Shape).Idx → EReal :=
  Host.reduceAdd (F := Ideal)
    (Host.divf (F := Ideal)
      (Host.reduceAdd (F := Ideal)
        (mulf (F := Ideal)
          (Host.negf (F := Ideal) fun i => shapeCast S8x1024 g Facts₀.shapeCasts_S8x1024x1_S8x1024 i)
          (uitofp (F := Ideal) .f32
            (cmpi .sle
              (broadcastInDim S8x1024 ![0, 1] Facts₀.bcast_S1x1024_S8x1024_0_1
                (broadcastInDim S1x1024 ![1] Facts₀.bcast_S1024_S1x1024_1 (iotaInDim S1024 32 0)))
              (broadcastInDim S8x1024 ![0, 1] Facts₀.bcast_S8x1_S8x1024_0_1
                (broadcastInDim S8x1 ![0] Facts₀.bcast_S8_S8x1_0
                  fun j =>
                    (Host.reduce2 reducer_argmax_i1_i32
                      (cmpi .eq tg (broadcastInDim S8x1024 ![] Facts₀.bcast_S_S8x1024 (constantI S_ 32 1#32)))
                      (iotaInDim S8x1024 32 1) (constantI S_ 1 0#1) (constantI S_ 32 0#32)
                      Facts₀.reducesTo_S8x1024_S8_d1 Facts₀.h_S_ j).2)))))
        (constant (F := Ideal) S_ .f32 0x00000000#32) Facts₀.reducesTo_S8x1024_S8_d1 Facts₀.h_S_)
      (sitofp (F := Ideal) .f32
        fun j =>
          (Host.reduce2 reducer_argmax_i1_i32
            (cmpi .eq tg (broadcastInDim S8x1024 ![] Facts₀.bcast_S_S8x1024 (constantI S_ 32 1#32)))
            (iotaInDim S8x1024 32 1) (constantI S_ 1 0#1) (constantI S_ 32 0#32)
            Facts₀.reducesTo_S8x1024_S8_d1 Facts₀.h_S_ j).2))
    (constant (F := Ideal) S_ .f32 0x00000000#32) Facts₀.reducesTo_S8_S_d0 Facts₀.h_S_

/-- The result buffer after the lines that follow the region: those lines' operations, in their order, on the
    region's result array (the picked entries) and on the labels (which no line writes). -/
theorem tail_read (m : (ℓ : Loc nD τ sig) → Buf (Elt Ideal) ℓ) (c : Dev nD) :
    Pipeline.afterTail₀ cfgs (dats m) 0 (V0 m) [hostOps1, hostOps1_1, hostOps1_2] c main_v18
      = kernelTail (picked (m ((c.tc : Thread nD τ).loc main_arg0)) (m ((c.tc : Thread nD τ).loc main_arg1)))
          (m ((c.tc : Thread nD τ).loc main_arg1)) := by
  -- the region's result array, and the labels, as the lines after the region find them
  have hg : Pipeline.withArrays (cfgs 0).spec c (V0 m c) (fun w => (dats m 0 c).arrAt w (cfgs 0).N) (Proc.devRef .tc main_v1)
      = picked (m ((c.tc : Thread nD τ).loc main_arg0)) (m ((c.tc : Thread nD τ).loc main_arg1)) :=
    (Pipeline.withArrays_arr spec0 launch0.win.arr_inj c _ _ 2).trans (Kernel.kernel_array m c)
  have ht : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  simp only [hostOps1, hostOps1_1, hostOps1_2, List.flatten_cons, List.flatten_nil, List.append_nil, List.cons_append,
    List.nil_append]
  show StableHlo.after _ _ (Proc.devRef .tc main_v18) = _
  after_results_simp
  exact congrArg₂ kernelTail hg ht

/-- Every weakly fair execution of the idealized kernel program ends with the result at the tail of the picked
    entries, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = kernelTail (picked (m ((c.tc : Thread nD τ).loc main_arg0)) (m ((c.tc : Thread nD τ).loc main_arg1)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v18 (Pipeline.mem_restRefs_of main_v18 (by decide) (by decide))).trans (tail_read m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.NllGather

end
-- ==== Proof.LibTakeAlongLast.lean ====
/-
  A general lemma: `jnp.take_along_axis(x, idx[..., None], axis=2)` over a rank-3 array, read at an index.
-/
import Idealize.ShloMosaic.PureOps.Ideal
import Idealize.ShloMosaic.Lib.ValueIdx

noncomputable section

namespace Cert.Lib

open Idealize.ShloMosaic Idealize.ShloMosaic.ValueIdx

section TakeAlongLast
variable {α : Type}

/-- The dimension numbers `jnp.take_along_axis` along the last axis of a rank-3 operand [B, T, V] lowers to: start
    indices [B, T, 1, 1] with the index vector on axis 3, the two leading axes batching on both sides, the last
    operand axis collapsed and named by the start index map, every slice size 1; result [B, T, 1]. -/
abbrev takeLastDims (B T V : Nat)
    (wf : GatherDims.WF ⟨3, ![B, T, V]⟩ ⟨4, ![B, T, 1, 1]⟩ ⟨3, ![B, T, 1]⟩ [] [2] [0, 1] [2] [0, 1] 3 ![1, 1, 1]) :
    GatherDims ⟨3, ![B, T, V]⟩ ⟨4, ![B, T, 1, 1]⟩ ⟨3, ![B, T, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Membership of the three operand axes in the literal axis lists of the dimension numbers. -/
private theorem ax0_mem (h : 0 < 3) : (⟨0, h⟩ : Fin 3) ∈ ([0, 1] : List (Fin 3)) := by revert h; decide
private theorem ax1_mem (h : 1 < 3) : (⟨1, h⟩ : Fin 3) ∈ ([0, 1] : List (Fin 3)) := by revert h; decide
private theorem ax2_mem (h : 2 < 3) : (⟨2, h⟩ : Fin 3) ∈ ([2] : List (Fin 3)) := by revert h; decide
private theorem ax2_not_mem (h : 2 < 3) : (⟨2, h⟩ : Fin 3) ∉ ([0, 1] : List (Fin 3)) := by revert h; decide

/-- THE GATHER READ AT (b, t, z): the operand's row (b, t) at the start index `idx[b, t, z, 0]`, read signed and
    clamped into [0, V − 1]. -/
theorem gather_take_along_last {B T V w : Nat} (hV : 0 < V)
    (wf : GatherDims.WF ⟨3, ![B, T, V]⟩ ⟨4, ![B, T, 1, 1]⟩ ⟨3, ![B, T, 1]⟩ [] [2] [0, 1] [2] [0, 1] 3 ![1, 1, 1])
    (x : (⟨3, ![B, T, V]⟩ : Shape).Idx → α) (idx : IVec ⟨4, ![B, T, 1, 1]⟩ w) (b : Fin B) (t : Fin T) (z : Fin 1) :
    Host.gather (takeLastDims B T V wf) x idx (ix3 b t z)
      = x (ix3 b t (⟨min (idx (ix4 b t z (0 : Fin 1))).toInt.toNat (V - 1), by omega⟩ : Fin V)) := by
  unfold Host.gather
  congr 1
  funext a
  refine Fin.ext ?_
  show (takeLastDims B T V wf).start (ix3 b t z) idx a + (takeLastDims B T V wf).batchCoord (ix3 b t z) a
      + (takeLastDims B T V wf).offCoord (ix3 b t z) a = _
  -- no offset axes: every operand axis is collapsed or batching
  have hoff : (takeLastDims B T V wf).offCoord (ix3 b t z) a = 0 := by
    refine GatherDims.offCoord_eq_zero _ _ _ (fun h => ?_)
    have hk := (GatherDims.mem_sKept _ _).mp h
    match a, hk with
    | ⟨0, h0⟩, hk => exact hk.2 (ax0_mem h0)
    | ⟨1, h1⟩, hk => exact hk.2 (ax1_mem h1)
    | ⟨2, h2⟩, hk => exact hk.1 (ax2_mem h2)
  rw [hoff, Nat.add_zero]
  match a with
  | ⟨0, h0⟩ =>
    -- a batching axis: start 0, the result's own coordinate
    rw [GatherDims.start_batching _ _ _ _ (ax0_mem h0), Nat.zero_add]
    unfold GatherDims.batchCoord
    rw [dif_pos (ax0_mem h0)]
    rfl
  | ⟨1, h1⟩ =>
    rw [GatherDims.start_batching _ _ _ _ (ax1_mem h1), Nat.zero_add]
    unfold GatherDims.batchCoord
    rw [dif_pos (ax1_mem h1)]
    rfl
  | ⟨2, h2⟩ =>
    -- the collapsed axis: the clamped start index, nothing added
    rw [GatherDims.batchCoord_eq_zero _ _ _ (ax2_not_mem h2), Nat.add_zero]
    unfold GatherDims.start
    rw [dif_pos (ax2_mem h2)]
    have hsi : (takeLastDims B T V wf).siIdx (ix3 b t z) ⟨List.idxOf (⟨2, h2⟩ : Fin 3) (takeLastDims B T V wf).startIndexMap,
        List.idxOf_lt_length_iff.2 (ax2_mem h2)⟩ = ix4 b t z (0 : Fin 1) := by
      funext c; refine Fin.ext ?_
      match c with
      | ⟨0, _⟩ => rfl
      | ⟨1, _⟩ => rfl
      | ⟨2, _⟩ => rfl
      | ⟨3, _⟩ => rfl
    rw [hsi]
    rfl

end TakeAlongLast

end Cert.Lib

end
-- ==== Proof.RefRun.lean ====
/-
  The reference program's run, read at its result. Its @main is a straight line of host operations with two
  outlined functions (the first index of the end-of-sequence label, and the take along the last axis); under
  labels that are column numbers the take returns the picked entries (the index is not negative, so it is not
  shifted; it is in range, so the range mask is all true and the fill value is never selected; the gather
  reads the row at the label), and the rest of @main is the tail applied to them.
-/
import proofs.«402519_j87290915324014_3_alg».proof.ReferenceIdeal
import proofs.«402519_j87290915324014_3_alg».proof.Proof.Gen.ReferenceIdeal
import proofs.«402519_j87290915324014_3_alg».proof.Proof.Spec
import proofs.«402519_j87290915324014_3_alg».proof.Proof.LabelWords
import proofs.«402519_j87290915324014_3_alg».proof.Proof.LibTakeAlongLast
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.NllGather

open Cert.ReferenceIdeal Cert.ReferenceIdeal.Gen Idealize.ShloMosaic.StableHlo

section Run
variable {F : FTy → Type} [FloatOps F]

/-- The reference's operations in program order, the two outlined functions' operations at their call sites. -/
abbrev ops : List (HloOp τ sig (Elt F)) :=
  [ nullary main_c (constantI S_ 32 1#32),
    unary main_c main_v0 (broadcastInDim S8x1024 ![] bcast_S_S8x1024 : (⟨S_, .i32⟩ : BufTy).Contents (Elt F) → (⟨S8x1024, .i32⟩ : BufTy).Contents (Elt F)),
    binary main_arg1 main_v0 main_v1 (cmpi .eq : (⟨S8x1024, .i32⟩ : BufTy).Contents (Elt F) → (⟨S8x1024, .i32⟩ : BufTy).Contents (Elt F) → (⟨S8x1024, .i1⟩ : BufTy).Contents (Elt F)),
    TRef.nullary main_call0.v0 (iotaInDim S8x1024 32 1),
    TRef.nullary main_call0.c (constantI S_ 1 0#1),
    TRef.nullary main_call0.c_0 (constantI S_ 32 0#32),
    TRef.quaternary (.of main_v1) main_call0.v0 main_call0.c main_call0.c_0 main_call0.v1_0 (fun x y u v j => (Host.reduce2 reducer_argmax_i1_i32 x y u v reducesTo_S8x1024_S8_d1 h_S_ j).1),
    TRef.quaternary (.of main_v1) main_call0.v0 main_call0.c main_call0.c_0 main_call0.v1_1 (fun x y u v j => (Host.reduce2 reducer_argmax_i1_i32 x y u v reducesTo_S8x1024_S8_d1 h_S_ j).2),
    nullary main_v3 (iotaInDim S1024 32 0),
    unary main_v3 main_v4 (broadcastInDim S1x1024 ![1] bcast_S1024_S1x1024_1 : (⟨S1024, .i32⟩ : BufTy).Contents (Elt F) → (⟨S1x1024, .i32⟩ : BufTy).Contents (Elt F)),
    unary main_v2 main_v5 (broadcastInDim S8x1 ![0] bcast_S8_S8x1_0 : (⟨S8, .i32⟩ : BufTy).Contents (Elt F) → (⟨S8x1, .i32⟩ : BufTy).Contents (Elt F)),
    unary main_v4 main_v6 (broadcastInDim S8x1024 ![0, 1] bcast_S1x1024_S8x1024_0_1 : (⟨S1x1024, .i32⟩ : BufTy).Contents (Elt F) → (⟨S8x1024, .i32⟩ : BufTy).Contents (Elt F)),
    unary main_v5 main_v7 (broadcastInDim S8x1024 ![0, 1] bcast_S8x1_S8x1024_0_1 : (⟨S8x1, .i32⟩ : BufTy).Contents (Elt F) → (⟨S8x1024, .i32⟩ : BufTy).Contents (Elt F)),
    binary main_v6 main_v7 main_v8 (cmpi .sle : (⟨S8x1024, .i32⟩ : BufTy).Contents (Elt F) → (⟨S8x1024, .i32⟩ : BufTy).Contents (Elt F) → (⟨S8x1024, .i1⟩ : BufTy).Contents (Elt F)),
    unary main_arg1 main_v9 (broadcastInDim S8x1024x1 ![0, 1] bcast_S8x1024_S8x1024x1_0_1 : (⟨S8x1024, .i32⟩ : BufTy).Contents (Elt F) → (⟨S8x1024x1, .i32⟩ : BufTy).Contents (Elt F)),
    TRef.nullary main_call1.c (constantI S_ 32 0#32),
    TRef.unary main_call1.c main_call1.v0 (broadcastInDim S8x1024x1 ![] bcast_S_S8x1024x1),
    TRef.binary (.of main_v9) main_call1.v0 main_call1.v1 (cmpi .slt),
    TRef.nullary main_call1.c_0 (constantI S_ 32 32000#32),
    TRef.unary main_call1.c_0 main_call1.v2 (broadcastInDim S8x1024x1 ![] bcast_S_S8x1024x1),
    TRef.binary (.of main_v9) main_call1.v2 main_call1.v3 addi,
    TRef.ternary main_call1.v1 main_call1.v3 (.of main_v9) main_call1.v4 select,
    TRef.reshape main_call1.v4 main_call1.v5 rfl shapeCasts_S8x1024x1_S8x1024x1x1,
    TRef.nullary main_call1.c_1 (constantI S1 32 31999#32),
    TRef.nullary main_call1.c_2 (constantI S_ 32 0#32),
    TRef.unary main_call1.c_2 main_call1.v6 (broadcastInDim S8x1024x1x1 ![] bcast_S_S8x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S8x1024x1x1 ![0, 1, 2, 3] bcast_S1x1x1x1_S8x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x1024x1x1_S8x1024x1_d3 h_S_),
    TRef.binary (.of main_arg0) main_call1.v5 main_call1.v13 (fun x i => Host.gather gather_S8x1024x32000_S8x1024x1x1_S8x1024x1_n_2_01_01_2_3_111 x i),
    TRef.nullary main_call1.cst (constant S_ .f32 0x7FC00000#32),
    TRef.unary main_call1.cst main_call1.v14 (broadcastInDim S8x1024x1 ![] bcast_S_S8x1024x1),
    TRef.ternary main_call1.v12 main_call1.v13 main_call1.v14 main_call1.v15 select,
    reshape main_v10 main_v11 rfl shapeCasts_S8x1024x1_S8x1024,
    unary main_v11 main_v12 (Host.negf : (⟨S8x1024, .f32⟩ : BufTy).Contents (Elt F) → (⟨S8x1024, .f32⟩ : BufTy).Contents (Elt F)),
    unary main_v8 main_v13 (uitofp .f32 : (⟨S8x1024, .i1⟩ : BufTy).Contents (Elt F) → (⟨S8x1024, .f32⟩ : BufTy).Contents (Elt F)),
    binary main_v12 main_v13 main_v14 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v14 main_cst main_v15 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    unary main_v2 main_v16 (sitofp .f32 : (⟨S8, .i32⟩ : BufTy).Contents (Elt F) → (⟨S8, .f32⟩ : BufTy).Contents (Elt F)),
    binary main_v15 main_v16 main_v17 (Host.divf : (⟨S8, .f32⟩ : BufTy).Contents (Elt F) → (⟨S8, .f32⟩ : BufTy).Contents (Elt F) → (⟨S8, .f32⟩ : BufTy).Contents (Elt F)),
    nullary main_cst_0 (constant S_ .f32 0x00000000#32),
    binary main_v17 main_cst_0 main_v18 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

set_option maxRecDepth 2048 in
/-- @main is that straight line once the outlined functions are unfolded at their calls and sequencing is reassociated. -/
theorem main_eq (c : Dev nD) : main (F := F) c = seq ops := by
  simp only [main, fn_argmax.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub ..,
    nullary_bufs_sub .., nullary_bufs_sub .., nullary_bufs_sub .., quaternary_bufs_sub .., quaternary_bufs_sub ..,
    nullary_bufs_sub .., unary_bufs_sub .., unary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., unary_bufs_sub .., unary_bufs_sub .., binary_bufs_sub .., nullary_bufs_sub .., binary_bufs_sub ..,
    unary_bufs_sub .., binary_bufs_sub .., nullary_bufs_sub .., binary_bufs_sub ..⟩

/-- Every weakly fair execution of the reference ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

/-! ## The take, read at an index -/

section Take

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduction by `and` from 1 of an array of ones is 1 at every result index. -/
theorem reduce_andi_of_all_one {s t : Shape} {axes : List (Fin s.rank)} (x : s.Idx → BitVec 1) (h : s.ReducesTo axes t)
    (hu : 0 < S_.numel) (hx : ∀ i, x i = 1#1) (j : t.Idx) :
    Host.reduce IntOp.andi x (constantI S_ 1 1#1) h hu j = 1#1 := by
  rw [Host.reduce_eq_foldl]
  exact foldl_andi_of_all_one x hx _

/-- The labels with a unit axis appended, at (b, t, z): the label at (b, t). -/
theorem lab_apply (tg : S8x1024.Idx → BitVec 32) (b : Fin 8) (t : Fin 1024) (z : Fin 1) :
    broadcastInDim S8x1024x1 ![0, 1] bcast_S8x1024_S8x1024x1_0_1 tg (ix3 b t z) = tg (ix2 b t) :=
  broadcastInDim_apply _ _ tg (ix3 b t z) (ix2 b t) (fun a => match a with | ⟨0, _⟩ => rfl | ⟨1, _⟩ => rfl)

/-- An [8, 1024, 1] array viewed [8, 1024, 1, 1], at (b, t, z, w): the array at (b, t, z). -/
theorem cast4_apply {α : Type} (v : S8x1024x1.Idx → α) (b : Fin 8) (t : Fin 1024) (z w : Fin 1) :
    shapeCast S8x1024x1x1 v shapeCasts_S8x1024x1_S8x1024x1x1 (ix4 b t z w) = v (ix3 b t z) :=
  shapeCast_apply v _ (ix4 b t z w) (ix3 b t z) (by
    rw [Shape.rowMajor_val_three, Shape.rowMajor_val_four]
    have hw := w.isLt
    show (b.val * 1024 + t.val) * 1 + z.val = ((b.val * 1024 + t.val) * 1 + z.val) * 1 + w.val
    omega)

/-- The take's start indices: the labels with the unit axis appended, 32000 added where negative, viewed
    [8, 1024, 1, 1]. -/
def takeIdx (tg : S8x1024.Idx → BitVec 32) : S8x1024x1x1.Idx → BitVec 32 :=
  shapeCast S8x1024x1x1
    (select
      (cmpi .slt (broadcastInDim S8x1024x1 ![0, 1] bcast_S8x1024_S8x1024x1_0_1 tg)
        (broadcastInDim S8x1024x1 ![] bcast_S_S8x1024x1 (constantI S_ 32 0#32)))
      (addi (broadcastInDim S8x1024x1 ![0, 1] bcast_S8x1024_S8x1024x1_0_1 tg)
        (broadcastInDim S8x1024x1 ![] bcast_S_S8x1024x1 (constantI S_ 32 32000#32)))
      (broadcastInDim S8x1024x1 ![0, 1] bcast_S8x1024_S8x1024x1_0_1 tg))
    shapeCasts_S8x1024x1_S8x1024x1x1

/-- Where the label is a column number it is not negative, so the start index is the label itself. -/
theorem takeIdx_apply (tg : S8x1024.Idx → BitVec 32) (b : Fin 8) (t : Fin 1024) (z w : Fin 1)
    (h : (tg (ix2 b t)).toNat < 32000) : takeIdx tg (ix4 b t z w) = tg (ix2 b t) := by
  unfold takeIdx
  rw [cast4_apply]
  show Scalar.select (IntOp.cmpi .slt (broadcastInDim S8x1024x1 ![0, 1] bcast_S8x1024_S8x1024x1_0_1 tg (ix3 b t z)) 0#32)
      (IntOp.addi (broadcastInDim S8x1024x1 ![0, 1] bcast_S8x1024_S8x1024x1_0_1 tg (ix3 b t z)) 32000#32)
      (broadcastInDim S8x1024x1 ![0, 1] bcast_S8x1024_S8x1024x1_0_1 tg (ix3 b t z)) = tg (ix2 b t)
  rw [lab_apply, slt_zero_of_lt _ h, select_zero]

/-- The take's range mask before its reduction: start index at least 0 and at most 31999. -/
def takeMask (tg : S8x1024.Idx → BitVec 32) : S8x1024x1x1.Idx → BitVec 1 :=
  andi
    (cmpi .sge (takeIdx tg) (broadcastInDim S8x1024x1x1 ![] bcast_S_S8x1024x1x1 (constantI S_ 32 0#32)))
    (cmpi .sle (takeIdx tg)
      (broadcastInDim S8x1024x1x1 ![0, 1, 2, 3] bcast_S1x1x1x1_S8x1024x1x1_0_1_2_3
        (broadcastInDim S1x1x1x1 ![3] bcast_S1_S1x1x1x1_3 (constantI S1 32 31999#32))))

/-- Where every label is a column number the range mask is 1 everywhere. -/
theorem takeMask_one (tg : S8x1024.Idx → BitVec 32) (hr : ∀ b t, (tg (ix2 b t)).toNat < 32000)
    (i : S8x1024x1x1.Idx) : takeMask tg i = 1#1 := by
  obtain ⟨b, t, z, w, rfl⟩ : ∃ b t z w, i = ix4 b t z w := ⟨i 0, i 1, i 2, i 3, eq_ix4 i⟩
  show IntOp.andi (IntOp.cmpi .sge (takeIdx tg (ix4 b t z w)) 0#32) (IntOp.cmpi .sle (takeIdx tg (ix4 b t z w)) 31999#32) = 1#1
  rw [takeIdx_apply tg b t z w (hr b t), sge_zero_of_lt _ (hr b t), sle_max_of_lt _ (hr b t)]
  decide

/-- The take along the last axis as the reference computes it: the gather at the start indices where the reduced range
    mask is 1, the fill value elsewhere. -/
def takeStage (x : S8x1024x32000.Idx → EReal) (tg : S8x1024.Idx → BitVec 32) : S8x1024x1.Idx → EReal :=
  select
    (Host.reduce IntOp.andi (takeMask tg) (constantI S_ 1 1#1) reducesTo_S8x1024x1x1_S8x1024x1_d3 h_S_)
    (Host.gather gather_S8x1024x32000_S8x1024x1x1_S8x1024x1_n_2_01_01_2_3_111 x (takeIdx tg))
    (broadcastInDim S8x1024x1 ![] bcast_S_S8x1024x1 (constant (F := Ideal) S_ .f32 0x7FC00000#32))

/-- Where every label is a column number the take is the picked entries. -/
theorem take_eq (x : S8x1024x32000.Idx → EReal) (tg : S8x1024.Idx → BitVec 32)
    (hr : ∀ b t, (tg (ix2 b t)).toNat < 32000) : takeStage x tg = picked x tg := by
  funext j
  obtain ⟨b, t, z, rfl⟩ : ∃ b t z, j = ix3 b t z := ⟨j 0, j 1, j 2, eq_ix3 j⟩
  have h := hr b t
  rw [picked_apply]
  unfold takeStage
  rw [select_apply, reduce_andi_of_all_one _ _ _ (takeMask_one tg hr), select_one]
  have hd : gather_S8x1024x32000_S8x1024x1x1_S8x1024x1_n_2_01_01_2_3_111
      = Cert.Lib.takeLastDims 8 1024 32000 gather_S8x1024x32000_S8x1024x1x1_S8x1024x1_n_2_01_01_2_3_111_wf := rfl
  rw [hd, Cert.Lib.gather_take_along_last (by decide) _ x (takeIdx tg) b t z]
  unfold pickAt
  rw [dif_pos h]
  refine congrArg (fun k => x (ix3 b t k)) (Fin.ext ?_)
  show min (takeIdx tg (ix4 b t z (0 : Fin 1))).toInt.toNat (32000 - 1) = (tg (ix2 b t)).toNat
  rw [takeIdx_apply tg b t z 0 h, toInt_toNat_of_lt _ h]
  omega

end Take

/-- The reference's operations after the take, as one function of the taken entries `g` and the labels. -/
def refTail (g : (⟨3, ![8, 1024, 1]⟩ : Shape).Idx → EReal) (tg : (⟨2, ![8, 1024]⟩ : Shape).Idx → BitVec 32) :
    (⟨0, ![]⟩ : Shape).Idx → EReal :=
  Host.reduceAdd (F := Ideal)
    (Host.divf (F := Ideal)
      (Host.reduceAdd (F := Ideal)
        (mulf (F := Ideal)
          (Host.negf (F := Ideal) fun i => shapeCast S8x1024 g Facts₀.shapeCasts_S8x1024x1_S8x1024 i)
          (uitofp (F := Ideal) .f32
            (cmpi .sle
              (broadcastInDim S8x1024 ![0, 1] Facts₀.bcast_S1x1024_S8x1024_0_1
                (broadcastInDim S1x1024 ![1] Facts₀.bcast_S1024_S1x1024_1 (iotaInDim S1024 32 0)))
              (broadcastInDim S8x1024 ![0, 1] Facts₀.bcast_S8x1_S8x1024_0_1
                (broadcastInDim S8x1 ![0] Facts₀.bcast_S8_S8x1_0
                  fun j =>
                    (Host.reduce2 reducer_argmax_i1_i32
                      (cmpi .eq tg (broadcastInDim S8x1024 ![] Facts₀.bcast_S_S8x1024 (constantI S_ 32 1#32)))
                      (iotaInDim S8x1024 32 1) (constantI S_ 1 0#1) (constantI S_ 32 0#32)
                      Facts₀.reducesTo_S8x1024_S8_d1 Facts₀.h_S_ j).2)))))
        (constant (F := Ideal) S_ .f32 0x00000000#32) Facts₀.reducesTo_S8x1024_S8_d1 Facts₀.h_S_)
      (sitofp (F := Ideal) .f32
        fun j =>
          (Host.reduce2 reducer_argmax_i1_i32
            (cmpi .eq tg (broadcastInDim S8x1024 ![] Facts₀.bcast_S_S8x1024 (constantI S_ 32 1#32)))
            (iotaInDim S8x1024 32 1) (constantI S_ 1 0#1) (constantI S_ 32 0#32)
            Facts₀.reducesTo_S8x1024_S8_d1 Facts₀.h_S_ j).2))
    (constant (F := Ideal) S_ .f32 0x00000000#32) Facts₀.reducesTo_S8_S_d0 Facts₀.h_S_

/-! ## The run read at the result -/

section Read

attribute [local irreducible] Host.reduce Host.reduce2 Host.gather Host.reduceAdd in
set_option maxRecDepth 8192 in
/-- The result buffer after the operations: the tail of the take stage of the two arguments. -/
theorem result_read (V : Valuation τ sig (Elt Ideal)) :
    after (ops (F := Ideal)) V (main_v18 : DevRef τ sig)
      = refTail (takeStage (V (main_arg0 : DevRef τ sig)) (V (main_arg1 : DevRef τ sig))) (V (main_arg1 : DevRef τ sig)) := by
  after_results_simp
  rfl

set_option maxRecDepth 4096 in
theorem arg0_read (V : Valuation τ sig (Elt Ideal)) :
    after (ops (F := Ideal)) V (main_arg0 : DevRef τ sig) = V (main_arg0 : DevRef τ sig) := by
  after_results_simp

set_option maxRecDepth 4096 in
theorem arg1_read (V : Valuation τ sig (Elt Ideal)) :
    after (ops (F := Ideal)) V (main_arg1 : DevRef τ sig) = V (main_arg1 : DevRef τ sig) := by
  after_results_simp

end Read

/-- Where every label is a column number, every weakly fair execution of the idealized reference ends with the
    result at the tail of the picked entries, the arguments unchanged. -/
theorem ref_run (m : (ℓ : Loc nD τ sig) → Buf (Elt Ideal) ℓ) (ρ : Dev nD → PrngReg)
    (hr : ∀ (c : Dev nD) (b : Fin 8) (t : Fin 1024), (m ((c.tc : Thread nD τ).loc main_arg1) (ix2 b t)).toNat < 32000) :
    θ_run (defs (F := Ideal)) (onTc (τ := τ) (main (F := Ideal))) ⟨m, fun _ => 0, ρ⟩ (fun r => ∀ c : Dev nD,
      r.2.mem ((c.tc : Thread nD τ).loc main_v18)
          = refTail (picked (m ((c.tc : Thread nD τ).loc main_arg0)) (m ((c.tc : Thread nD τ).loc main_arg1)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c main_v18).trans (result_read _)).trans
        (congrArg (fun g => refTail g (m ((c.tc : Thread nD τ).loc main_arg1)))
          (take_eq (m ((c.tc : Thread nD τ).loc main_arg0)) (m ((c.tc : Thread nD τ).loc main_arg1)) (hr c))),
      (h c main_arg0).trans (arg0_read _),
      (h c main_arg1).trans (arg1_read _)⟩)
    (run_main m ρ)

end Cert.NllGather

end
-- ==== Proof.lean ====
/-
  The certificate of the masked-scan negative-log-likelihood kernel against its take-along-axis reference.

  Inputs: log-probabilities x of shape [8, 1024, 32000] and labels tg of shape [8, 1024]; the precondition
  says x is finite and every label is a column number, 0 ≤ tg < 32000.

  Both programs first form g[b, t] = x[b, t, tg[b, t]] and then apply the same operations to g and tg: negate,
  keep the positions up to the first end-of-sequence label of each sequence, sum each sequence, divide by
  that position, sum over the batch. The reference reads g by a gather along the last axis (with jnp's
  wrap of negative indices and its fill outside the range, neither of which binds on column numbers). The
  kernel scans each row's 32000 columns in five tiles of 6400, adding x where the column number equals the
  label and 0 elsewhere into an accumulator it resets at the first tile and copies out at the last; over the
  extended reals a sum of zeros and one entry is that entry, so the accumulator ends at x[b, t, tg[b, t]].
  The ideal pass rewrote nothing, so the preservation claim is trivial; the kernel's two frames are the
  generated ones; the reference's frame is its run with the result dropped.
-/
import proofs.«402519_j87290915324014_3_alg».proof.Defs
import proofs.«402519_j87290915324014_3_alg».proof.Proof.Gen.Kernel
import proofs.«402519_j87290915324014_3_alg».proof.Proof.Gen.Kernel.Frame
import proofs.«402519_j87290915324014_3_alg».proof.Proof.Gen.KernelIdeal
import proofs.«402519_j87290915324014_3_alg».proof.Proof.Gen.KernelIdeal.Frame
import proofs.«402519_j87290915324014_3_alg».proof.Proof.Gen.ReferenceIdeal
import proofs.«402519_j87290915324014_3_alg».proof.Proof.Gen.Pre_finite_inputs
import proofs.«402519_j87290915324014_3_alg».proof.Proof.Spec
import proofs.«402519_j87290915324014_3_alg».proof.Proof.PreRange
import proofs.«402519_j87290915324014_3_alg».proof.Proof.KernelRun
import proofs.«402519_j87290915324014_3_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx
open Cert.NllGather

/-- The two programs apply the same operations after the picked entries are formed. -/
theorem tails_eq : kernelTail = refTail := rfl

theorem frame_k : Cert.frame_Kernel := fun m ρ _ => Cert.Kernel.Gen.frame m ρ

theorem frame_ki : Cert.frame_KernelIdeal := fun m ρ _ => Cert.KernelIdeal.Gen.frame m ρ

/-- Under the precondition the reference runs: its run with the result dropped. -/
theorem frame_ri : Cert.frame_ReferenceIdeal := fun m ρ hpre =>
  (θ_run Cert.ReferenceIdeal.defs _ _).mono (fun _ h c => (h c).2)
    (ref_run m ρ (fun c b t => range_of_pre _ _ (hpre c) b t))

theorem preserves : Cert.preserves_Kernel_KernelIdeal := trivial

/-- From memories agreeing on the arguments both idealized programs end at the tail of the picked entries. -/
theorem algebraic : Cert.algebraic_KernelIdeal_ReferenceIdeal := by
  intro m ρ m' ρ' hpre hagree
  refine ⟨fun c => kernelTail
      (picked (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)),
    kernel_run m ρ, ?_⟩
  have hr : ∀ (c : Dev Cert.ReferenceIdeal.nD) (b : Fin 8) (t : Fin 1024),
      (m' ((c.tc : Thread Cert.ReferenceIdeal.nD Cert.ReferenceIdeal.τ).loc Cert.ReferenceIdeal.main_arg1) (ix2 b t)).toNat < 32000 := by
    intro c b t
    rw [(hagree c).2]
    exact range_of_pre _ _ (hpre c) b t
  refine (θ_run Cert.ReferenceIdeal.defs _ _).mono (fun _ h c => ⟨(h c).1.trans ?_, (h c).2⟩) (ref_run m' ρ' hr)
  rw [(hagree c).1, (hagree c).2, tails_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
